-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S32x1x1 : Shape := ⟨3, ![32, 1, 1]⟩
abbrev S256x1 : Shape := ⟨2, ![256, 1]⟩
abbrev S1x1x1 : Shape := ⟨3, ![1, 1, 1]⟩
abbrev S256x8192 : Shape := ⟨2, ![256, 8192]⟩
abbrev S256 : Shape := ⟨1, ![256]⟩
abbrev S1x256x1 : Shape := ⟨3, ![1, 256, 1]⟩
abbrev S1 : Shape := ⟨1, ![1]⟩
abbrev S_ : Shape := ⟨0, ![]⟩
abbrev S8191 : Shape := ⟨1, ![8191]⟩

abbrev nBuf : Space → Nat
  | .hbm => 58
  | .vmem => 8
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192x1, .f32⟩
  | .hbm, ⟨3, _⟩ => ⟨S1x8192, .f32⟩
  | .hbm, ⟨4, _⟩ => ⟨S8192x1, .i32⟩
  | .hbm, ⟨5, _⟩ => ⟨S1x8192, .i32⟩
  | .hbm, ⟨6, _⟩ => ⟨S32x1x1, .f32⟩
  | .hbm, ⟨7, _⟩ => ⟨S_, .f32⟩
  | .hbm, ⟨8, _⟩ => ⟨S_, .f32⟩
  | .hbm, ⟨9, _⟩ => ⟨S8192, .i32⟩
  | .hbm, ⟨10, _⟩ => ⟨S_, .i1⟩
  | .hbm, ⟨11, _⟩ => ⟨S1, .i1⟩
  | .hbm, ⟨12, _⟩ => ⟨S8191, .i32⟩
  | .hbm, ⟨13, _⟩ => ⟨S8191, .i32⟩
  | .hbm, ⟨14, _⟩ => ⟨S8191, .i1⟩
  | .hbm, ⟨15, _⟩ => ⟨S8192, .i1⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S1x8192, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S1x1x1, .f32⟩
  | .local _ .vmem, ⟨7, _⟩ => ⟨S1x1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call1_call0_c : Ref sig .tc := ⟨.hbm, 17, rfl⟩
abbrev main_call1_call0_v0 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_c_7 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c : Ref sig .tc := ⟨.hbm, 48, rfl⟩
abbrev main_call2_v6 : Ref sig .tc := ⟨.hbm, 49, rfl⟩
abbrev main_call2_v7 : Ref sig .tc := ⟨.hbm, 50, rfl⟩
abbrev main_call2_c_0 : Ref sig .tc := ⟨.hbm, 51, rfl⟩
abbrev main_call2_v8 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  h_S_ : 0 < S_.numel
  bcast_S_S1 : S_.BroadcastsInDim S1 (![] : Fin 0 → Fin S1.rank)
  slices_S8192_S8191_1 : S8192.Slices ![1] S8191
  slices_S8192_S8191_0 : S8192.Slices ![0] S8191
  concatenates_S1_S8191_S8192_d0 : Shape.Concatenates [S1, S8191] S8192 0
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  bcast_S_S8192 : S_.BroadcastsInDim S8192 (![] : Fin 0 → Fin S8192.rank)
  bcast_S8192_S8192x1_0 : S8192.BroadcastsInDim S8192x1 (![0] : Fin 1 → Fin S8192x1.rank)
  reducesTo_S8192_S_d0 : S8192.ReducesTo [0] S_
  scatter_S8192_S8192x1_S8192_n_0_0_1_wf : ScatterDims.WF S8192 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)

variable [Facts₀]

def comparator_i32_d0 : BitVec 32 → BitVec 32 → BitVec 1 :=
  fun l r =>
    let v1 := IntOp.cmpi .slt l r
    v1
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S1x8192, .f32⟩
  | .hbm, ⟨8, _⟩ => ⟨S_, .f32⟩
  | .hbm, ⟨9, _⟩ => ⟨S1x8192, .f32⟩
  | .hbm, ⟨10, _⟩ => ⟨S1x8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S1x8192 : S_.BroadcastsInDim S1x8192 (![] : Fin 0 → Fin S1x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_
  h_S_ : 0 < S_.numel

variable [Facts₀]

class Facts : Prop extends Facts₀ where

variable [Facts]
-- ==== Proof.KernelTail.lean ====
/-
  The host operations after the kernel's region, stretch by stretch: what each stretch leaves in the buffer the next
  one reads, as a function of the contents it started from.  In order: the sum of the 32 block sums; the sorted
  ranks; the run-start words; their running sum; 8192² minus the sum of the squared run lengths, and the divisor two;
  the floor division; and the quotient of the loss sum by the count (at least one) converted to a float.
-/
import proofs.«416168_j80908593922473_3_alg».proof.Proof.Gen.KernelIdeal.Frame
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-- Running two lists of host operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

variable (U : Valuation τ sig (Elt F))

/-- The loss sum: the host sum of the region's output array. -/
theorem sum_stage : StableHlo.after (hostOps1 (F := F)) U (Proc.devRef .tc main_v5)
    = Host.reduceAdd (U (Proc.devRef .tc main_v4)) (constant S_ .f32 0x00000000#32) reducesTo_S32x1x1_S_d0_1_2 h_S_ := by
  after_results
theorem sum_stage_arg1 : StableHlo.after (hostOps1 (F := F)) U (Proc.devRef .tc main_arg1) = U (Proc.devRef .tc main_arg1) := by
  after_results

/-- The sorted ranks. -/
theorem sort_stage : StableHlo.after (hostOps1_1 (F := F)) U (Proc.devRef .tc main_v6)
    = Host.sort S8192 0 comparator_i32_d0 (U (Proc.devRef .tc main_arg1)) := by
  after_results
  all_goals simp only [cast_eq]
theorem sort_stage_v5 : StableHlo.after (hostOps1_1 (F := F)) U (Proc.devRef .tc main_v5) = U (Proc.devRef .tc main_v5) := by
  after_results

/-- The run-start words of the sorted ranks. -/
theorem starts_stage : StableHlo.after (hostOps1_2 (F := F)) U (Proc.devRef .tc main_v12)
    = extui 32 (concatenate S8192 0 [⟨S1, broadcastInDim S1 ![] bcast_S_S1 (constantI S_ 1 1#1)⟩,
        ⟨S8191, cmpi .ne (extractStridedSlice S8191 ![1] (U (Proc.devRef .tc main_v6)) slices_S8192_S8191_1)
          (extractStridedSlice S8191 ![0] (U (Proc.devRef .tc main_v6)) slices_S8192_S8191_0)⟩]
        concatenates_S1_S8191_S8192_d0) natLt_1_32 := by
  after_results
theorem starts_stage_v5 : StableHlo.after (hostOps1_2 (F := F)) U (Proc.devRef .tc main_v5) = U (Proc.devRef .tc main_v5) := by
  after_results

/-- Their running sum. -/
theorem cumsum_stage : StableHlo.after (hostOps1_3 (F := F)) U (Proc.devRef .tc main_v13)
    = Host.reduceWindow IntOp.addi ![8192] ![1] ![8191] ![0] (U (Proc.devRef .tc main_v12))
        (broadcastInDim S_ ![] bcast_S_S_ (constantI S_ 32 0#32)) reduceWindows_S8192_S8192_w8192s1p8191_0 h_S_ := by
  after_results
  all_goals simp only [cast_eq]
theorem cumsum_stage_v5 : StableHlo.after (hostOps1_3 (F := F)) U (Proc.devRef .tc main_v5) = U (Proc.devRef .tc main_v5) := by
  after_results

set_option maxHeartbeats 2000000 in
/-- 8192² minus the sum of the squared run lengths. -/
theorem count_stage : StableHlo.after (hostOps1_4 (F := F)) U (Proc.devRef .tc main_v27)
    = subi (constantI S_ 32 67108864#32) (Host.reduce IntOp.addi (muli (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (U (Proc.devRef .tc main_v13)) (broadcastInDim S8192 ![] bcast_S_S8192 (constantI S_ 32 1#32))) (broadcastInDim S8192 ![] bcast_S_S8192 (constantI S_ 32 0#32))) (addi (subi (U (Proc.devRef .tc main_v13)) (broadcastInDim S8192 ![] bcast_S_S8192 (constantI S_ 32 1#32))) (broadcastInDim S8192 ![] bcast_S_S8192 (constantI S_ 32 8192#32))) (subi (U (Proc.devRef .tc main_v13)) (broadcastInDim S8192 ![] bcast_S_S8192 (constantI S_ 32 1#32))))) (broadcastInDim S8192 ![] bcast_S_S8192 (constantI S_ 32 1#32))) (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (U (Proc.devRef .tc main_v13)) (broadcastInDim S8192 ![] bcast_S_S8192 (constantI S_ 32 1#32))) (broadcastInDim S8192 ![] bcast_S_S8192 (constantI S_ 32 0#32))) (addi (subi (U (Proc.devRef .tc main_v13)) (broadcastInDim S8192 ![] bcast_S_S8192 (constantI S_ 32 1#32))) (broadcastInDim S8192 ![] bcast_S_S8192 (constantI S_ 32 8192#32))) (subi (U (Proc.devRef .tc main_v13)) (broadcastInDim S8192 ![] bcast_S_S8192 (constantI S_ 32 1#32))))) (broadcastInDim S8192 ![] bcast_S_S8192 (constantI S_ 32 1#32)))) (constantI S_ 32 0#32) reducesTo_S8192_S_d0 h_S_) := by
  after_results_simp
set_option maxHeartbeats 2000000 in
theorem count_stage_two : StableHlo.after (hostOps1_4 (F := F)) U (Proc.devRef .tc main_c_7) = constantI S_ 32 2#32 := by
  after_results_simp
set_option maxHeartbeats 2000000 in
theorem count_stage_v5 : StableHlo.after (hostOps1_4 (F := F)) U (Proc.devRef .tc main_v5) = U (Proc.devRef .tc main_v5) := by
  after_results_simp

/-- The floor division. -/
theorem div_stage : StableHlo.after (hostOps1_5 (F := F)) U (Proc.devRef .tc main_v28)
    = select
        (andi (cmpi .ne (signi (U (Proc.devRef .tc main_v27))) (signi (id (U (Proc.devRef .tc main_c_7)))))
          (cmpi .ne (Host.remsi (U (Proc.devRef .tc main_v27)) (id (U (Proc.devRef .tc main_c_7)))) (constantI S_ 32 0#32)))
        (subi (Host.divsi (U (Proc.devRef .tc main_v27)) (id (U (Proc.devRef .tc main_c_7)))) (constantI S_ 32 1#32))
        (Host.divsi (U (Proc.devRef .tc main_v27)) (id (U (Proc.devRef .tc main_c_7)))) := by
  after_results
  all_goals simp only [cast_eq]
theorem div_stage_v5 : StableHlo.after (hostOps1_5 (F := F)) U (Proc.devRef .tc main_v5) = U (Proc.devRef .tc main_v5) := by
  after_results

/-- The result. -/
theorem result_stage : StableHlo.after (hostOps1_6 (F := F)) U (Proc.devRef .tc main_v31)
    = Host.divf (U (Proc.devRef .tc main_v5)) (sitofp .f32 (maxsi (U (Proc.devRef .tc main_v28)) (constantI S_ 32 1#32))) := by
  after_results

end Cert.KernelIdeal.Tail

end
-- ==== Proof.PairLoss.lean ====
/-
  One pair's term of the rank loss, in the two spellings the two programs use, over the extended reals.
  For a pair (i, j) with predictions a = pred i, b = pred j and ranks ra = rank i, rb = rank j:
    the kernel masks the hinge and then squares it:      (if ra < rb then max ((1 + a) - b) 0 else 0)²
    the reference squares the hinge and then masks it:   if ra < rb then (max ((1 - b) + a) 0)² else 0
  (ra < rb signed).  For real a and b the two agree: (1 + a) - b = (1 - b) + a in ℝ, and 0² = 0.
-/
import Idealize.ShloMosaic.PureOps.Ideal
import Idealize.ShloMosaic.PureOps.Ideal.Laws

noncomputable section

namespace PairLoss

open Idealize.ShloMosaic

/-- The word 0x3F800000 read as an exact value: the real number one. -/
abbrev one : EReal := Ideal.ofBits .f32 0x3F800000#32

/-- The kernel's term of a pair: the hinge masked by the rank comparison, then squared. -/
def kerTerm (a b : EReal) (ra rb : BitVec 32) : EReal :=
  Scalar.select (IntOp.cmpi .slt ra rb) (max ((one + a) - b) 0) 0
    * Scalar.select (IntOp.cmpi .slt ra rb) (max ((one + a) - b) 0) 0

/-- The reference's term of a pair: the squared hinge, masked by the rank comparison. -/
def refTerm (a b : EReal) (ra rb : BitVec 32) : EReal :=
  Scalar.select (IntOp.cmpi .slt ra rb) (max ((one - b) + a) 0 * max ((one - b) + a) 0) 0

theorem one_eq : one = ((1 : ℝ) : EReal) := by
  show Ideal.ofBits .f32 0x3F800000#32 = ((1 : ℝ) : EReal)
  simp [Ideal.ofBits, Ideal.ieee, -EReal.coe_mul]
  norm_num

/-- At real predictions the two spellings are one value. -/
theorem kerTerm_eq_refTerm (a b : ℝ) (ra rb : BitVec 32) :
    kerTerm (a : EReal) (b : EReal) ra rb = refTerm (a : EReal) (b : EReal) ra rb := by
  -- in ℝ the two hinges are one number: (1 + a) - b = (1 - b) + a
  have hinge : (one + (a : EReal)) - (b : EReal) = (one - (b : EReal)) + (a : EReal) := by
    rw [one_eq, ← EReal.coe_add, ← EReal.coe_sub, ← EReal.coe_sub, ← EReal.coe_add]
    congr 1
    ring
  unfold kerTerm refTerm
  rw [hinge]
  simp only [Scalar.select]
  split_ifs
  · rfl
  · exact mul_zero 0

end PairLoss

end
-- ==== Proof.PairSum.lean ====
/-
  The kernel's sum — over the 32 row blocks, the 256 rows of a block and all 8192 columns — of its pair terms is the
  reference's sum over all ordered pairs of its pair terms, when every prediction is a real number: row
  `256·t + p` of block `t` runs over every row once, and the two spellings of a pair's term agree at real
  predictions.
-/
import Mathlib.Algebra.BigOperators.Fin
import Mathlib.Logic.Equiv.Fin.Basic
import proofs.«416168_j80908593922473_3_alg».proof.Proof.PairLoss

noncomputable section

namespace PairLoss

open Idealize.ShloMosaic
open scoped BigOperators

/-- Row `p` of block `t`. -/
def rowOf (t : Fin 32) (p : Fin 256) : Fin 8192 := ⟨256 * t.val + p.val, by omega⟩

/-- Every row is row `i % 256` of block `i / 256`, once: the rows of the blocks are the rows. -/
def rowEquiv : Fin 32 × Fin 256 ≃ Fin 8192 where
  toFun tp := rowOf tp.1 tp.2
  invFun i := (⟨i.val / 256, by have := i.isLt; omega⟩, ⟨i.val % 256, by omega⟩)
  left_inv tp := by
    obtain ⟨t, p⟩ := tp
    have ht := t.isLt
    have hp := p.isLt
    refine Prod.ext (Fin.ext ?_) (Fin.ext ?_)
    · show (256 * t.val + p.val) / 256 = t.val
      omega
    · show (256 * t.val + p.val) % 256 = p.val
      omega
  right_inv i := by
    refine Fin.ext ?_
    show 256 * (i.val / 256) + i.val % 256 = i.val
    omega

/-- A sum over the blocks and the rows of a block is the sum over the rows. -/
theorem sum_blocks_rows {M : Type*} [AddCommMonoid M] (g : Fin 8192 → M) :
    ∑ t : Fin 32, ∑ p : Fin 256, g (rowOf t p) = ∑ i : Fin 8192, g i := by
  rw [← Fintype.sum_prod_type']
  exact Fintype.sum_equiv rowEquiv _ _ fun _ => rfl

theorem blocks_sum_eq (x : Fin 8192 → EReal) (r : Fin 8192 → BitVec 32) (hx : ∀ i, ∃ a : ℝ, x i = (a : EReal)) :
    ∑ t : Fin 32, ∑ p : Fin 256, ∑ q : Fin 8192, kerTerm (x (rowOf t p)) (x q) (r (rowOf t p)) (r q)
      = ∑ i : Fin 8192, ∑ k : Fin 8192, refTerm (x i) (x k) (r i) (r k) := by
  choose a ha using hx
  obtain rfl : x = fun i => ((a i : ℝ) : EReal) := funext ha
  have hterm : ∀ i k : Fin 8192, kerTerm ((a i : ℝ) : EReal) ((a k : ℝ) : EReal) (r i) (r k)
      = refTerm ((a i : ℝ) : EReal) ((a k : ℝ) : EReal) (r i) (r k) := fun i k => kerTerm_eq_refTerm _ _ _ _
  rw [← sum_blocks_rows fun i => ∑ k : Fin 8192, refTerm ((a i : ℝ) : EReal) ((a k : ℝ) : EReal) (r i) (r k)]
  exact Finset.sum_congr rfl fun t _ => Finset.sum_congr rfl fun p _ => Finset.sum_congr rfl fun k _ => hterm _ _

end PairLoss

end
-- ==== Proof.PayloadSum.lean ====
/-
  What one grid point of the kernel stores, read at the extended reals: from a block of 256 predictions and ranks
  (the rows) and all 8192 predictions and ranks (the columns), the sum over the 256 × 8192 pairs (row, column) of the
  kernel's pair term — a lane sum per row, then the sum of the 256 row sums.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«416168_j80908593922473_3_alg».proof.Proof.Gen.KernelIdeal.Skeleton
import proofs.«416168_j80908593922473_3_alg».proof.Proof.PairLoss

noncomputable section

namespace PairLoss

open Idealize.ShloMosaic Idealize.ShloMosaic.ValueIdx Cert.KernelIdeal Cert.KernelIdeal.Gen
open scoped BigOperators

/-! ## Layout reads at an index given by coordinates -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The indices of a `[1, n, 1]` array are its middle coordinates … -/
def idxEquiv1n1 {n : ℕ} : (⟨3, ![1, n, 1]⟩ : Shape).Idx ≃ Fin n where
  toFun i := i 1
  invFun p := ix3 (0 : Fin 1) p (0 : Fin 1)
  left_inv i := by
    funext a
    match a with
    | ⟨0, _⟩ =>
      have h : (i 0).val < 1 := (i 0).isLt
      exact Fin.ext (show (0 : ℕ) = (i 0).val by omega)
    | ⟨1, _⟩ => rfl
    | ⟨2, _⟩ =>
      have h : (i 2).val < 1 := (i 2).isLt
      exact Fin.ext (show (0 : ℕ) = (i 2).val by omega)
  right_inv _ := rfl

/-- … so a sum over them is the sum over the middle coordinate. -/
theorem sum_idx1n1 {M : Type*} [AddCommMonoid M] {n : ℕ} (f : (⟨3, ![1, n, 1]⟩ : Shape).Idx → M) :
    ∑ i, f i = ∑ p : Fin n, f (ix3 (0 : Fin 1) p (0 : Fin 1)) := by
  rw [← Equiv.sum_comp (idxEquiv1n1 (n := n)).symm f]
  rfl

/-! ## The two reductions -/

/-- The stored vector at its one index is the one element of the vector the second reduction leaves. -/
theorem outer_apply (V : FVec Ideal S1 .f32) (j : S1x1x1.Idx) :
    ∃ k : S1.Idx, broadcast S1x1x1 (extractAt ![0, 0, 0] (shapeCast S1x1x1 V shapeCasts_S1_S1x1x1) inpos_S1x1x1_p0_0_0) j = V k :=
  ⟨_, rfl⟩

/-- A lane sum per row, the row sums cast to a `[1, 256, 1]` block, and that block summed: the double sum of the matrix. -/
theorem reduce_rows (T : FVec Ideal S256x8192 .f32) (j : S1x1x1.Idx) :
    broadcast S1x1x1 (extractAt ![0, 0, 0] (shapeCast S1x1x1
        (multiReduction .add [1, 2] S1
          (shapeCast S1x256x1 (shapeCast S256x1
            (multiReduction .add [1] S256 T 0x00000000#32 reduces_S256x8192_S256 (.inl rfl) rfl)
            shapeCasts_S256_S256x1) shapeCasts_S256x1_S1x256x1)
          0x00000000#32 reduces_S1x256x1_S1 (.inl rfl) rfl)
        shapeCasts_S1_S1x1x1) inpos_S1x1x1_p0_0_0) j
      = ∑ p : Fin 256, ∑ q : Fin 8192, T (ix2 p q) := by
  obtain ⟨k, hk⟩ := outer_apply (multiReduction .add [1, 2] S1
          (shapeCast S1x256x1 (shapeCast S256x1
            (multiReduction .add [1] S256 T 0x00000000#32 reduces_S256x8192_S256 (.inl rfl) rfl)
            shapeCasts_S256_S256x1) shapeCasts_S256x1_S1x256x1)
          0x00000000#32 reduces_S1x256x1_S1 (.inl rfl) rfl) j
  refine hk.trans ?_
  refine (Ideal.multiReduction_add_total _ _ reduces_S1x256x1_S1 (fun b => by match b with | ⟨0, _⟩ => rfl) _ _ k).trans ?_
  refine (sum_idx1n1 _).trans ?_
  refine Finset.sum_congr rfl fun p _ => ?_
  refine (shapeCast_ab_1ab_apply _ shapeCasts_S256x1_S1x256x1 (0 : Fin 1) p (0 : Fin 1)).trans ?_
  refine (shapeCast_a_a1_apply _ shapeCasts_S256_S256x1 p (0 : Fin 1)).trans ?_
  refine (Ideal.multiReduction_add_single T _ reduces_S256x8192_S256 _ _ (ix1 p)).trans ?_
  refine Finset.sum_congr rfl fun q _ => congrArg T ?_
  funext a
  match a with
  | ⟨0, _⟩ => exact Fin.ext rfl
  | ⟨1, _⟩ => exact Fin.ext rfl

/-! ## The matrix the reductions sum -/

/-- The matrix of pair terms as the body computes it: at (row, column) the hinge of the row's prediction plus one minus
    the column's, masked by the signed comparison of the row's rank with the column's, squared. -/
def pairMatrix (v0 : Vec Ideal S256x1 .f32) (v2 : Vec Ideal S1x8192 .f32) (v4 : Vec Ideal S256x1 .i32)
    (v6 : Vec Ideal S1x8192 .i32) : FVec Ideal S256x8192 .f32 :=
  have v1 : FVec Ideal S256x1 .f32 := shapeCast S256x1 v0 shapeCasts_S256x1_S256x1
  have v3 : FVec Ideal S1x8192 .f32 := shapeCast S1x8192 v2 shapeCasts_S1x8192_S1x8192
  have v5 : IVec S256x1 32 := shapeCast S256x1 v4 shapeCasts_S256x1_S256x1
  have v7 : IVec S1x8192 32 := shapeCast S1x8192 v6 shapeCasts_S1x8192_S1x8192
  have cst : Ideal .f32 := Scalar.ofBits .f32 0x3F800000#32
  have v8 : FVec Ideal S256x1 .f32 := broadcast S256x1 cst
  have v9 : FVec Ideal S256x1 .f32 := addf v8 v1
  have v10 : FVec Ideal S256x8192 .f32 := broadcastTo S256x8192 v9 broadcasts_S256x1_S256x8192
  have v11 : FVec Ideal S256x8192 .f32 := broadcastTo S256x8192 v3 broadcasts_S1x8192_S256x8192
  have v12 : FVec Ideal S256x8192 .f32 := subf v10 v11
  have cst_7 : Ideal .f32 := Scalar.ofBits .f32 0x00000000#32
  have v13 : FVec Ideal S256x8192 .f32 := broadcast S256x8192 cst_7
  have v14 : FVec Ideal S256x8192 .f32 := maximumf v12 v13
  have v15 : IVec S256x8192 32 := broadcastTo S256x8192 v5 broadcasts_S256x1_S256x8192
  have v16 : IVec S256x8192 32 := broadcastTo S256x8192 v7 broadcasts_S1x8192_S256x8192
  have v17 : IVec S256x8192 1 := cmpi .slt v15 v16
  have cst_8 : Ideal .f32 := Scalar.ofBits .f32 0x00000000#32
  have v18 : FVec Ideal S256x8192 .f32 := broadcast S256x8192 cst_8
  have v19 : FVec Ideal S256x8192 .f32 := select v17 v14 v18
  mulf v19 v19

/-- The body's stored vector is the two reductions of that matrix. -/
theorem k0_pay1_eq (x0 : Vec Ideal S256x1 .f32) (x1 : Vec Ideal S1x8192 .f32) (x2 : Vec Ideal S256x1 .i32)
    (x3 : Vec Ideal S1x8192 .i32) :
    k0_pay1 (F := Ideal) x0 x1 x2 x3
      = broadcast S1x1x1 (extractAt ![0, 0, 0] (shapeCast S1x1x1
          (multiReduction .add [1, 2] S1
            (shapeCast S1x256x1 (shapeCast S256x1
              (multiReduction .add [1] S256 (pairMatrix x0 x1 x2 x3) 0x00000000#32 reduces_S256x8192_S256 (.inl rfl) rfl)
              shapeCasts_S256_S256x1) shapeCasts_S256x1_S1x256x1)
            0x00000000#32 reduces_S1x256x1_S1 (.inl rfl) rfl)
          shapeCasts_S1_S1x1x1) inpos_S1x1x1_p0_0_0) := rfl

/-- That matrix at (p, q) is the kernel's term of the pair (row p, column q). -/
theorem pairMatrix_apply (x0 : Vec Ideal S256x1 .f32) (x1 : Vec Ideal S1x8192 .f32) (x2 : Vec Ideal S256x1 .i32)
    (x3 : Vec Ideal S1x8192 .i32) (p : Fin 256) (q : Fin 8192) :
    pairMatrix x0 x1 x2 x3 (ix2 p q)
      = kerTerm (x0 (ix2 p (0 : Fin 1))) (x1 (ix2 (0 : Fin 1) q)) (x2 (ix2 p (0 : Fin 1))) (x3 (ix2 (0 : Fin 1) q)) := by
  -- the row's rank and the column's rank, each read at (p, q) of its broadcast
  have e15 : broadcastTo S256x8192 (shapeCast S256x1 x2 shapeCasts_S256x1_S256x1) broadcasts_S256x1_S256x8192 (ix2 p q)
      = x2 (ix2 p (0 : Fin 1)) := by
    rw [shapeCast_self]; exact broadcastTo_a1_ab_apply _ _ p q
  have e16 : broadcastTo S256x8192 (shapeCast S1x8192 x3 shapeCasts_S1x8192_S1x8192) broadcasts_S1x8192_S256x8192 (ix2 p q)
      = x3 (ix2 (0 : Fin 1) q) := by
    rw [shapeCast_self]; exact broadcastTo_1b_ab_apply _ _ p q
  -- one plus the row's prediction, and the column's prediction
  have e10 : broadcastTo S256x8192 (addf (broadcast S256x1 (Ideal.ofBits .f32 0x3F800000#32))
        (shapeCast S256x1 x0 shapeCasts_S256x1_S256x1)) broadcasts_S256x1_S256x8192 (ix2 p q)
      = one + x0 (ix2 p (0 : Fin 1)) := by
    rw [shapeCast_self]; exact broadcastTo_a1_ab_apply _ _ p q
  have e11 : broadcastTo S256x8192 (shapeCast S1x8192 x1 shapeCasts_S1x8192_S1x8192) broadcasts_S1x8192_S256x8192 (ix2 p q)
      = x1 (ix2 (0 : Fin 1) q) := by
    rw [shapeCast_self]; exact broadcastTo_1b_ab_apply _ _ p q
  unfold pairMatrix kerTerm
  simp only [mulf, select, cmpi, maximumf, subf, broadcast, Ideal.mulf_def, Ideal.maximumf_def, Ideal.subf_def,
    Ideal.ofBits_def, Ideal.ofBits_zero_f32, e15, e16, e10, e11]

/-- The body's stored value, at its one index, is the sum of the kernel's pair terms over the block's rows and all columns. -/
theorem payload_sum (x0 : Vec Ideal S256x1 .f32) (x1 : Vec Ideal S1x8192 .f32) (x2 : Vec Ideal S256x1 .i32)
    (x3 : Vec Ideal S1x8192 .i32) (j : S1x1x1.Idx) :
    k0_pay1 (F := Ideal) x0 x1 x2 x3 j
      = ∑ p : Fin 256, ∑ q : Fin 8192,
          kerTerm (x0 (ix2 p (0 : Fin 1))) (x1 (ix2 (0 : Fin 1) q)) (x2 (ix2 p (0 : Fin 1))) (x3 (ix2 (0 : Fin 1) q)) := by
  rw [k0_pay1_eq]
  refine (reduce_rows _ j).trans ?_
  exact Finset.sum_congr rfl fun p _ => Finset.sum_congr rfl fun q _ => pairMatrix_apply x0 x1 x2 x3 p q

end PairLoss

end
-- ==== Proof.KernelBlocks.lean ====
/-
  What the kernel's region leaves in its output array, at the extended reals: entry (t, 0, 0) of the [32, 1, 1]
  array is the sum, over the 256 rows of block t and all 8192 columns, of the kernel's pair term at the predictions
  and ranks of that row and that column.  Grid point t reads rows 256·t … 256·t + 255 of the column arrays
  (the [8192] arguments reshaped to [8192, 1]) and the whole row arrays (reshaped to [1, 8192]), and writes block t
  of the output, which is its entry (t, 0, 0); the 32 blocks cover the output.
-/
import Idealize.ShloMosaic.Lib.ValueIdx
import Idealize.ShloMosaic.Lib.ValueLayout
import Idealize.ShloMosaic.Lib.Pipeline.Value
import Idealize.ShloMosaic.Lib.StableHlo.Run
import Idealize.ShloMosaic.Lib.Decide
import proofs.«416168_j80908593922473_3_alg».proof.Proof.Gen.KernelIdeal.Frame
import proofs.«416168_j80908593922473_3_alg».proof.Proof.PairSum
import proofs.«416168_j80908593922473_3_alg».proof.Proof.PayloadSum

set_option maxRecDepth 16384

noncomputable section

namespace Cert.KernelIdeal.Blocks

open Idealize.ShloMosaic Idealize.ShloMosaic.ValueIdx Idealize.ShloMosaic.TcCoe Idealize.SL.Sem
open Idealize.ShloMosaic.Pipeline (Dat Cfg Window)
open Cert.KernelIdeal Cert.KernelIdeal.Gen PairLoss
open scoped BigOperators

variable (m : (ℓ : Loc nD τ sig) → Buf (Elt Ideal) ℓ)

/-- The block sums as one function of the two argument arrays. -/
def blockSums (x : FVec Ideal S8192 .f32) (r : IVec S8192 32) : Vec Ideal S32x1x1 .f32 := fun j =>
  ∑ p : Fin 256, ∑ q : Fin 8192,
    kerTerm (x (ix1 (rowOf (j 0) p))) (x (ix1 q)) (r (ix1 (rowOf (j 0) p))) (r (ix1 q))

/-! ## The zero offsets, the index maps over the grid, and the arrays the host wrote before the region -/

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the 32 grid points: the column windows and the output window sit at block `t`
    of their first axis, the row windows at block `0`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The prediction column the region finds is the prediction argument reshaped to [8192, 1]. -/
theorem V_predCol (c : Dev nD) :
    (V (F := Ideal) m c main_v0 : S8192x1.Idx → EReal)
      = shapeCast S8192x1 (m ((c.tc : Thread nD τ).loc main_arg0)) shapeCasts_S8192_S8192x1 := by
  dsimp only [Gen.V, Gen.V0]
  simp only [Gen.hostOps0, List.flatten_cons, List.flatten_nil, List.append_nil, List.cons_append, List.nil_append]
  after_results
  rfl

/-- The prediction row the region finds is the prediction argument reshaped to [1, 8192]. -/
theorem V_predRow (c : Dev nD) :
    (V (F := Ideal) m c main_v1 : S1x8192.Idx → EReal)
      = shapeCast S1x8192 (m ((c.tc : Thread nD τ).loc main_arg0)) shapeCasts_S8192_S1x8192 := by
  dsimp only [Gen.V, Gen.V0]
  simp only [Gen.hostOps0, List.flatten_cons, List.flatten_nil, List.append_nil, List.cons_append, List.nil_append]
  after_results
  rfl

/-- The rank column the region finds is the rank argument reshaped to [8192, 1]. -/
theorem V_rankCol (c : Dev nD) :
    (V (F := Ideal) m c main_v2 : S8192x1.Idx → BitVec 32)
      = shapeCast S8192x1 (m ((c.tc : Thread nD τ).loc main_arg1)) shapeCasts_S8192_S8192x1 := by
  dsimp only [Gen.V, Gen.V0]
  simp only [Gen.hostOps0, List.flatten_cons, List.flatten_nil, List.append_nil, List.cons_append, List.nil_append]
  after_results
  rfl

/-- The rank row the region finds is the rank argument reshaped to [1, 8192]. -/
theorem V_rankRow (c : Dev nD) :
    (V (F := Ideal) m c main_v3 : S1x8192.Idx → BitVec 32)
      = shapeCast S1x8192 (m ((c.tc : Thread nD τ).loc main_arg1)) shapeCasts_S8192_S1x8192 := by
  dsimp only [Gen.V, Gen.V0]
  simp only [Gen.hostOps0, List.flatten_cons, List.flatten_nil, List.append_nil, List.cons_append, List.nil_append]
  after_results
  rfl

/-! ## The input blocks of a grid point, read at the argument arrays -/

/-- Block `t` of the prediction column at its row `p` is the prediction of row `256·t + p`. -/
theorem predCol_block (c : Dev nD) (t : Fin cfg0.N) (k : Fin 32) (hk : k.val = t.val) (p : Fin 256) (u : Fin 1) :
    iblk (F := Ideal) m c 0 t (ix2 p u) = m ((c.tc : Thread nD τ).loc main_arg0) (ix1 (rowOf k p)) := by
  obtain ⟨e0, e1, -⟩ := index_facts t
  show V (F := Ideal) m c main_v0 (((cfg0.win 0).blk t).view.emb (ix2 p u)) = _
  have hemb : ((cfg0.win 0).blk t).view.emb (ix2 p u) = (ix2 (rowOf k p) (0 : Fin 1) : S8192x1.Idx) := by
    funext a; apply Fin.ext
    match a with
    | ⟨0, _⟩ => show win0_0.index t (0 : Fin 2) * 256 + 1 * p.val = 256 * k.val + p.val; omega
    | ⟨1, _⟩ => show win0_0.index t (1 : Fin 2) * 1 + 1 * u.val = 0; have := u.isLt; omega
  refine (congrArg (V (F := Ideal) m c main_v0) hemb).trans ?_
  refine (congrFun (V_predCol m c) _).trans ?_
  exact shapeCast_a_a1_apply _ _ _ _

/-- The one block of the prediction row at its column `q` is the prediction of row `q`. -/
theorem predRow_block (c : Dev nD) (t : Fin cfg0.N) (u : Fin 1) (q : Fin 8192) :
    iblk (F := Ideal) m c 1 t (ix2 u q) = m ((c.tc : Thread nD τ).loc main_arg0) (ix1 q) := by
  obtain ⟨-, -, e0, e1, -⟩ := index_facts t
  show V (F := Ideal) m c main_v1 (((cfg0.win 1).blk t).view.emb (ix2 u q)) = _
  have hemb : ((cfg0.win 1).blk t).view.emb (ix2 u q) = (ix2 (0 : Fin 1) q : S1x8192.Idx) := by
    funext a; apply Fin.ext
    match a with
    | ⟨0, _⟩ => show win0_1.index t (0 : Fin 2) * 1 + 1 * u.val = 0; have := u.isLt; omega
    | ⟨1, _⟩ => show win0_1.index t (1 : Fin 2) * 8192 + 1 * q.val = q.val; omega
  refine (congrArg (V (F := Ideal) m c main_v1) hemb).trans ?_
  refine (congrFun (V_predRow m c) _).trans ?_
  exact shapeCast_a_1a_apply _ _ _ _

/-- Block `t` of the rank column at its row `p` is the rank of row `256·t + p`. -/
theorem rankCol_block (c : Dev nD) (t : Fin cfg0.N) (k : Fin 32) (hk : k.val = t.val) (p : Fin 256) (u : Fin 1) :
    iblk (F := Ideal) m c 2 t (ix2 p u) = m ((c.tc : Thread nD τ).loc main_arg1) (ix1 (rowOf k p)) := by
  obtain ⟨-, -, -, -, e0, e1, -⟩ := index_facts t
  show V (F := Ideal) m c main_v2 (((cfg0.win 2).blk t).view.emb (ix2 p u)) = _
  have hemb : ((cfg0.win 2).blk t).view.emb (ix2 p u) = (ix2 (rowOf k p) (0 : Fin 1) : S8192x1.Idx) := by
    funext a; apply Fin.ext
    match a with
    | ⟨0, _⟩ => show win0_2.index t (0 : Fin 2) * 256 + 1 * p.val = 256 * k.val + p.val; omega
    | ⟨1, _⟩ => show win0_2.index t (1 : Fin 2) * 1 + 1 * u.val = 0; have := u.isLt; omega
  refine (congrArg (V (F := Ideal) m c main_v2) hemb).trans ?_
  refine (congrFun (V_rankCol m c) _).trans ?_
  exact shapeCast_a_a1_apply _ _ _ _

/-- The one block of the rank row at its column `q` is the rank of row `q`. -/
theorem rankRow_block (c : Dev nD) (t : Fin cfg0.N) (u : Fin 1) (q : Fin 8192) :
    iblk (F := Ideal) m c 3 t (ix2 u q) = m ((c.tc : Thread nD τ).loc main_arg1) (ix1 q) := by
  obtain ⟨-, -, -, -, -, -, e0, e1, -⟩ := index_facts t
  show V (F := Ideal) m c main_v3 (((cfg0.win 3).blk t).view.emb (ix2 u q)) = _
  have hemb : ((cfg0.win 3).blk t).view.emb (ix2 u q) = (ix2 (0 : Fin 1) q : S1x8192.Idx) := by
    funext a; apply Fin.ext
    match a with
    | ⟨0, _⟩ => show win0_3.index t (0 : Fin 2) * 1 + 1 * u.val = 0; have := u.isLt; omega
    | ⟨1, _⟩ => show win0_3.index t (1 : Fin 2) * 8192 + 1 * q.val = q.val; omega
  refine (congrArg (V (F := Ideal) m c main_v3) hemb).trans ?_
  refine (congrFun (V_rankRow m c) _).trans ?_
  exact shapeCast_a_1a_apply _ _ _ _

/-! ## What a grid point writes back, the cover, and the array after the region -/

/-- What point `t` writes back is block `t` of the block sums of the arguments. -/
theorem flushed_eq (c : Dev nD) (t : Fin cfg0.N) :
    (dats (F := Ideal) m 0 c).flushed 4 t
      = ((cfg0.win 4).blk t).view.read (Elt Ideal)
          (blockSums (m ((c.tc : Thread nD τ).loc main_arg0)) (m ((c.tc : Thread nD τ).loc main_arg1))) := by
  show (cfg0.win 4).cut (grid0.coords t) ((dats (F := Ideal) m 0 c).after 4 t) = _
  rw [after0_4]
  unfold out0_4
  rw [View.canon_unit_zero zero3]
  simp only [View.ld_unit_zero (S := S256x1) zero2, View.ld_unit_zero (S := S1x8192) zero2]
  obtain ⟨-, -, -, -, -, -, -, -, e0, -, -⟩ := index_facts t
  funext j
  show k0_pay1 (F := Ideal) (iblk m c 0 t) (iblk m c 1 t) (iblk m c 2 t) (iblk m c 3 t) j = _
  refine (payload_sum (iblk m c 0 t) (iblk m c 1 t) (iblk m c 2 t) (iblk m c 3 t) j).trans ?_
  -- the block's one index sits at entry (t, 0, 0) of the array
  show _ = blockSums (m ((c.tc : Thread nD τ).loc main_arg0)) (m ((c.tc : Thread nD τ).loc main_arg1))
      (((cfg0.win 4).blk t).view.emb j)
  have hk : (((cfg0.win 4).blk t).view.emb j (0 : Fin 3)).val = t.val := by
    show win0_4.index t (0 : Fin 3) * 1 + 1 * (j 0).val = t.val
    have : (j 0).val < 1 := (j 0).isLt
    omega
  unfold blockSums
  refine Finset.sum_congr rfl fun p _ => Finset.sum_congr rfl fun q _ => ?_
  rw [predCol_block m c t _ hk p 0, predRow_block m c t 0 q, rankCol_block m c t _ hk p 0, rankRow_block m c t 0 q]

/-- An index of the output array is in point `t`'s block iff each coordinate is in the block's range on its axis. -/
theorem mem_blk (t : Fin cfg0.N) (i : S32x1x1.Idx) :
    i ∈ ((cfg0.win 4).blk t).view.set
      ↔ ∀ a : Fin 3, win0_4.index t a * S1x1x1.size a ≤ (i a).val ∧ (i a).val < win0_4.index t a * S1x1x1.size a + S1x1x1.size a := by
  show i ∈ ((View.whole main_v4).slice (win0_4.rect t)).set ↔ _
  rw [View.set_slice_whole, Rect.mem_set_unit]
  exact Iff.rfl

/-- Entry (t, 0, 0) of the output array is in point `t`'s block: the 32 blocks cover the array. -/
theorem cover (i : S32x1x1.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 1 := (i 2).isLt
  obtain ⟨t, ht⟩ : ∃ t : Fin cfg0.N, t.val = (i 0).val := ⟨⟨(i 0).val, by rw [show cfg0.N = 32 from N_0]; exact hi0⟩, rfl⟩
  obtain ⟨-, -, -, -, -, -, -, -, e0, e1, e2⟩ := index_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- After the region the output array holds the block sums of the arguments. -/
theorem arr4_eq (c : Dev nD) :
    (dats (F := Ideal) m 0 c).arrAt 4 cfg0.N
      = blockSums (m ((c.tc : Thread nD τ).loc main_arg0)) (m ((c.tc : Thread nD τ).loc main_arg1)) := by
  exact (dats (F := Ideal) m 0 c).arrAt_eq_of_cover 4 _ (fun t _ => flushed_eq m c t) cover

end Cert.KernelIdeal.Blocks

end
-- ==== Proof.LibSortedPerm.lean ====
/-
  A signed ascending sort of a one-axis array of words reads the array through a bijection of the positions, and
  the values it reads are non-decreasing (as signed integers).
-/
import Idealize.ShloMosaic.PureOps
import Idealize.ShloMosaic.Lib.SortFacts
import Idealize.ShloMosaic.Lib.ValueIdx
import Mathlib.Order.Monotone.Basic

noncomputable section

namespace Idealize.ShloMosaic.SortedPerm

open Idealize.ShloMosaic Idealize.ShloMosaic.ValueIdx

theorem ofFin_eq_ix1 {n : Nat} (k : Fin n) : Shape.Idx.ofFin k = ix1 k := by
  funext a; match a with | ⟨0, _⟩ => exact Fin.ext rfl

/-- The comparison bit "a before b" of the signed less-than comparator is the order of the signed values. -/
theorem slt_bit_iff (a b : BitVec 32) : ((IntOp.cmpi .slt a b == 1#1) = true) ↔ a.toInt < b.toInt := by
  unfold IntOp.cmpi
  simp only [BitVec.slt, beq_iff_eq]
  by_cases h : a.toInt < b.toInt <;> simp [h]

/-- The sort's permutation and the order of what it reads. -/
theorem sort_slt_sorted_perm {n : Nat} (cmp : BitVec 32 → BitVec 32 → BitVec 1) (hcmp : ∀ a b, cmp a b = IntOp.cmpi .slt a b)
    (x : IVec ⟨1, ![n]⟩ 32) :
    ∃ σ : Fin n → Fin n, Function.Bijective σ ∧ (∀ k : Fin n, Host.sort ⟨1, ![n]⟩ 0 cmp x (ix1 k) = x (ix1 (σ k)))
      ∧ Monotone (fun k : Fin n => (x (ix1 (σ k))).toInt) := by
  let before : Fin n → Fin n → Bool := fun k k' => cmp (x (Shape.Idx.ofFin k)) (x (Shape.Idx.ofFin k')) == 1#1
  have hb : ∀ k k', before k k' = true ↔ (x (ix1 k)).toInt < (x (ix1 k')).toInt := by
    intro k k'
    show ((cmp (x (Shape.Idx.ofFin k)) (x (Shape.Idx.ofFin k')) == 1#1) = true) ↔ _
    rw [hcmp, ofFin_eq_ix1, ofFin_eq_ix1]; exact slt_bit_iff _ _
  have hbf : ∀ k k', before k k' = false ↔ (x (ix1 k')).toInt ≤ (x (ix1 k)).toInt := by
    intro k k'
    rw [← not_lt, ← hb, Bool.not_eq_true]
  refine ⟨sortedFrom before, ⟨sortedFrom_injective before, sortedFrom_surjective before⟩, ?_, ?_⟩
  · intro k
    rw [← ofFin_eq_ix1, Host.sort_rank1, Shape.Idx.ofFin_zero, ofFin_eq_ix1]
  · have hni : ∀ i j : Fin n, i < j → before (sortedFrom before j) (sortedFrom before i) = false :=
      sortedFrom_noInversion before before
        (fun a b h => by rw [hbf]; exact le_of_lt ((hb a b).mp h))
        (fun _ _ h => h)
        (fun a b c h1 h2 => by rw [hbf] at *; exact le_trans h2 h1)
    intro i j hij
    rcases lt_or_eq_of_le hij with h | h
    · exact (hbf _ _).mp (hni i j h)
    · subst h; exact le_refl _

end Idealize.ShloMosaic.SortedPerm

end
-- ==== Proof.LibRunCount.lean ====
/-
  Counting pairs through runs of a sorted sequence.  For a sequence `r` of `n` integers and a bijection `σ` of
  the positions with `r ∘ σ` non-decreasing, number the runs of equal values of `r ∘ σ` from zero: position `k`
  lies in run `runId k` = (the number of positions `l ≤ k` that start a run) − 1.  Then the squares of the run
  lengths sum to the number of ordered pairs holding equal values, and `n²` is twice the number of ordered pairs
  in strict order plus that sum.
-/
import Mathlib.Algebra.BigOperators.Fin
import Mathlib.Algebra.Order.BigOperators.Group.Finset
import Mathlib.Data.Fintype.Card
import Mathlib.Data.Fintype.Prod
import Mathlib.Order.Monotone.Basic
import Mathlib.Order.Interval.Finset.Fin
import Mathlib.Data.Int.Order.Basic

noncomputable section

namespace RunCount

open scoped BigOperators

variable {n : ℕ}

/-- `1` where position `k` starts a run of `s` (the first position, or a value different from the one before), else `0`. -/
def isNew (s : Fin n → ℤ) (k : Fin n) : ℕ :=
  if h : k.val = 0 then 1 else if s k ≠ s ⟨k.val - 1, by omega⟩ then 1 else 0

/-- The number of run starts at positions `≤ k`. -/
def starts (s : Fin n → ℤ) (k : Fin n) : ℕ := ∑ l ∈ Finset.univ.filter (fun l : Fin n => l ≤ k), isNew s l

/-- A position contributes at most one run start. -/
theorem isNew_le_one (s : Fin n → ℤ) (k : Fin n) : isNew s k ≤ 1 := by
  unfold isNew
  split_ifs <;> omega

/-- The first position starts a run. -/
theorem isNew_of_val_eq_zero (s : Fin n → ℤ) (k : Fin n) (h : k.val = 0) : isNew s k = 1 := by
  unfold isNew
  rw [dif_pos h]

/-- A position after the first does not start a run exactly when it repeats the value before it. -/
theorem isNew_eq_zero_iff (s : Fin n → ℤ) (m l : Fin n) (h : l.val = m.val + 1) :
    isNew s l = 0 ↔ s l = s m := by
  have hl : ¬ l.val = 0 := by omega
  have hm : (⟨l.val - 1, by omega⟩ : Fin n) = m := Fin.ext (by simp [h])
  unfold isNew
  rw [dif_neg hl, hm]
  by_cases hsl : s l = s m <;> simp [hsl]

/-- The positions `≤ m + 1` are the positions `≤ m` and the position `m + 1`. -/
theorem starts_succ (s : Fin n → ℤ) (m l : Fin n) (h : l.val = m.val + 1) :
    starts s l = starts s m + isNew s l := by
  unfold starts
  have hset : Finset.univ.filter (fun x : Fin n => x ≤ l)
      = insert l (Finset.univ.filter (fun x : Fin n => x ≤ m)) := by
    ext x
    simp only [Finset.mem_filter, Finset.mem_univ, true_and, Finset.mem_insert, Fin.le_def, Fin.ext_iff]
    omega
  have hnot : l ∉ Finset.univ.filter (fun x : Fin n => x ≤ m) := by
    simp only [Finset.mem_filter, Finset.mem_univ, true_and, Fin.le_def]
    omega
  rw [hset, Finset.sum_insert hnot, add_comm]

/-- The count of run starts grows with the position. -/
theorem starts_mono (s : Fin n → ℤ) {k l : Fin n} (h : k ≤ l) : starts s k ≤ starts s l := by
  unfold starts
  apply Finset.sum_le_sum_of_subset
  intro x hx
  simp only [Finset.mem_filter, Finset.mem_univ, true_and] at hx ⊢
  exact le_trans hx h

theorem one_le_starts (s : Fin n → ℤ) (k : Fin n) : 1 ≤ starts s k := by
  have hn : 0 < n := k.pos
  have hmem : (⟨0, hn⟩ : Fin n) ∈ Finset.univ.filter (fun l : Fin n => l ≤ k) := by
    simp only [Finset.mem_filter, Finset.mem_univ, true_and, Fin.le_def]
    exact Nat.zero_le _
  calc 1 = isNew s ⟨0, hn⟩ := (isNew_of_val_eq_zero s _ rfl).symm
    _ ≤ starts s k := Finset.single_le_sum (f := isNew s) (fun _ _ => Nat.zero_le _) hmem

theorem starts_le (s : Fin n → ℤ) (k : Fin n) : starts s k ≤ k.val + 1 := by
  unfold starts
  calc ∑ l ∈ Finset.univ.filter (fun l : Fin n => l ≤ k), isNew s l
      ≤ ∑ l ∈ Finset.univ.filter (fun l : Fin n => l ≤ k), 1 :=
        Finset.sum_le_sum (fun l _ => isNew_le_one s l)
    _ = (Finset.univ.filter (fun l : Fin n => l ≤ k)).card := (Finset.card_eq_sum_ones _).symm
    _ = k.val + 1 := by rw [Finset.filter_ge_eq_Iic, Fin.card_Iic]

/-- The run of position `k`, numbered from zero; it is a position. -/
def runId (s : Fin n → ℤ) (k : Fin n) : Fin n := ⟨starts s k - 1, by
  have := starts_le s k; have := one_le_starts s k; omega⟩

/-- If no run starts in `(k, l]` then `s` holds one value at `k` and at `l` (induction on `l − k`). -/
theorem eq_of_starts_eq (s : Fin n → ℤ) : ∀ (d : ℕ) (k l : Fin n), l.val = k.val + d →
    starts s k = starts s l → s k = s l := by
  intro d
  induction d with
  | zero =>
    intro k l h _
    have hkl : k = l := Fin.ext (by omega)
    rw [hkl]
  | succ d ih =>
    intro k l h hst
    obtain ⟨m, hm⟩ : ∃ m : Fin n, m.val = k.val + d := ⟨⟨k.val + d, by omega⟩, rfl⟩
    have hlm : l.val = m.val + 1 := by omega
    have hstep := starts_succ s m l hlm
    have hkm : starts s k ≤ starts s m := starts_mono s (Fin.le_def.2 (by omega))
    have hnew : isNew s l = 0 := by omega
    have heq : starts s k = starts s m := by omega
    have h1 : s k = s m := ih k m hm heq
    have h2 : s l = s m := (isNew_eq_zero_iff s m l hlm).1 hnew
    rw [h1, h2]

/-- In a non-decreasing sequence, equal values at `k ≤ l` force every value between to agree, so no run
starts in `(k, l]` (induction on `l − k`). -/
theorem starts_eq_of_eq (s : Fin n → ℤ) (hs : Monotone s) : ∀ (d : ℕ) (k l : Fin n), l.val = k.val + d →
    s k = s l → starts s k = starts s l := by
  intro d
  induction d with
  | zero =>
    intro k l h _
    have hkl : k = l := Fin.ext (by omega)
    rw [hkl]
  | succ d ih =>
    intro k l h hkl
    obtain ⟨m, hm⟩ : ∃ m : Fin n, m.val = k.val + d := ⟨⟨k.val + d, by omega⟩, rfl⟩
    have hlm : l.val = m.val + 1 := by omega
    have h1 : s k ≤ s m := hs (Fin.le_def.2 (by omega))
    have h2 : s m ≤ s l := hs (Fin.le_def.2 (by omega))
    have hskm : s k = s m := by omega
    have hslm : s l = s m := by omega
    have hnew : isNew s l = 0 := (isNew_eq_zero_iff s m l hlm).2 hslm
    rw [starts_succ s m l hlm, hnew, add_zero]
    exact ih k m hm hskm

/-- In a non-decreasing sequence two positions lie in one run exactly when they hold one value. -/
theorem runId_eq_iff (s : Fin n → ℤ) (hs : Monotone s) (k l : Fin n) : runId s k = runId s l ↔ s k = s l := by
  have hst : runId s k = runId s l ↔ starts s k = starts s l := by
    have h1 := one_le_starts s k
    have h2 := one_le_starts s l
    unfold runId
    rw [Fin.mk.injEq]
    omega
  rw [hst]
  rcases le_total k l with h | h
  · have hd : l.val = k.val + (l.val - k.val) := by
      have := Fin.le_def.1 h
      omega
    exact ⟨eq_of_starts_eq s _ k l hd, starts_eq_of_eq s hs _ k l hd⟩
  · have hd : k.val = l.val + (k.val - l.val) := by
      have := Fin.le_def.1 h
      omega
    exact ⟨fun e => (eq_of_starts_eq s _ l k hd e.symm).symm,
      fun e => (starts_eq_of_eq s hs _ l k hd e.symm).symm⟩

/-- The squares of the fibre sizes of a map count the ordered pairs with one image. -/
theorem sum_sq_card_fiber (f : Fin n → Fin n) :
    ∑ g : Fin n, ((Finset.univ.filter (fun k : Fin n => f k = g)).card) ^ 2
      = (Finset.univ.filter (fun p : Fin n × Fin n => f p.1 = f p.2)).card := by
  rw [Finset.card_eq_sum_card_fiberwise (f := fun p : Fin n × Fin n => f p.1) (t := Finset.univ)
    (fun _ _ => Finset.mem_coe.2 (Finset.mem_univ _))]
  refine Finset.sum_congr rfl (fun g _ => ?_)
  rw [sq, ← Finset.card_product]
  congr 1
  ext p
  simp only [Finset.mem_product, Finset.mem_filter, Finset.mem_univ, true_and]
  constructor
  · rintro ⟨h1, h2⟩
    exact ⟨by rw [h1, h2], h1⟩
  · rintro ⟨h1, h2⟩
    exact ⟨h2, by rw [← h1, h2]⟩

/-- The `n²` ordered pairs split into those in strict order, those in the reverse strict order (as many,
by swapping), and those holding equal values. -/
theorem sq_eq_two_mul_lt_add_eq (r : Fin n → ℤ) :
    n ^ 2 = 2 * (Finset.univ.filter (fun p : Fin n × Fin n => r p.1 < r p.2)).card
      + (Finset.univ.filter (fun p : Fin n × Fin n => r p.1 = r p.2)).card := by
  have htot : (Finset.univ : Finset (Fin n × Fin n)).card = n ^ 2 := by
    rw [Finset.card_univ, Fintype.card_prod, Fintype.card_fin, sq]
  have hswap : (Finset.univ.filter (fun p : Fin n × Fin n => r p.2 < r p.1)).card
      = (Finset.univ.filter (fun p : Fin n × Fin n => r p.1 < r p.2)).card := by
    apply Finset.card_bijective Prod.swap Prod.swap_bijective
    intro p
    simp
  have h1 := Finset.card_filter_add_card_filter_not (s := (Finset.univ : Finset (Fin n × Fin n)))
    (fun p => r p.1 < r p.2)
  have h2 := Finset.card_filter_add_card_filter_not
    (s := Finset.univ.filter (fun p : Fin n × Fin n => ¬ r p.1 < r p.2)) (fun p => r p.2 < r p.1)
  rw [Finset.filter_filter, Finset.filter_filter] at h2
  have e1 : Finset.univ.filter (fun p : Fin n × Fin n => ¬ r p.1 < r p.2 ∧ r p.2 < r p.1)
      = Finset.univ.filter (fun p : Fin n × Fin n => r p.2 < r p.1) := by
    apply Finset.filter_congr
    intro p _
    omega
  have e2 : Finset.univ.filter (fun p : Fin n × Fin n => ¬ r p.1 < r p.2 ∧ ¬ r p.2 < r p.1)
      = Finset.univ.filter (fun p : Fin n × Fin n => r p.1 = r p.2) := by
    apply Finset.filter_congr
    intro p _
    omega
  rw [e1, e2] at h2
  omega

/-- The capstone: `n² = 2·#{(i, j) | r i < r j} + Σ_g (length of run g)²`. -/
theorem sq_eq_two_mul_lt_add_sum_sq (r : Fin n → ℤ) (σ : Fin n → Fin n) (hσ : Function.Bijective σ)
    (hs : Monotone (r ∘ σ)) :
    n ^ 2 = 2 * (Finset.univ.filter (fun p : Fin n × Fin n => r p.1 < r p.2)).card
      + ∑ g : Fin n, ((Finset.univ.filter (fun k : Fin n => runId (r ∘ σ) k = g)).card) ^ 2 := by
  rw [sum_sq_card_fiber (runId (r ∘ σ))]
  have hcongr : Finset.univ.filter (fun p : Fin n × Fin n => runId (r ∘ σ) p.1 = runId (r ∘ σ) p.2)
      = Finset.univ.filter (fun p : Fin n × Fin n => r (σ p.1) = r (σ p.2)) := by
    apply Finset.filter_congr
    intro p _
    exact runId_eq_iff (r ∘ σ) hs p.1 p.2
  have hbij : (Finset.univ.filter (fun p : Fin n × Fin n => r (σ p.1) = r (σ p.2))).card
      = (Finset.univ.filter (fun p : Fin n × Fin n => r p.1 = r p.2)).card := by
    apply Finset.card_bijective (Prod.map σ σ) (hσ.prodMap hσ)
    intro p
    simp
  rw [hcongr, hbij]
  exact sq_eq_two_mul_lt_add_eq r

end RunCount

end
-- ==== Proof.LibRunStarts.lean ====
/-
  The words that mark where runs start in a one-axis array of 8192 words: the word one at position 0, and at
  position k ≥ 1 the word of "entry k differs from entry k - 1" — spelt as a one-element array of ones
  concatenated with the elementwise comparison of the array without its first entry against the array without its
  last entry, widened to 32 bits.  Entry k is the word of `RunCount.isNew` of the signed values at k.
-/
import Idealize.ShloMosaic.PureOps
import Idealize.ShloMosaic.Lib.ValueIdx
import Idealize.ShloMosaic.Lib.Pipeline.Value
import Mathlib.Data.BitVec
import proofs.«416168_j80908593922473_3_alg».proof.Proof.LibRunCount

noncomputable section

namespace Idealize.ShloMosaic.RunStarts

open Idealize.ShloMosaic Idealize.ShloMosaic.ValueIdx

/-- The run-start words, read at position `k`. -/
theorem run_start_words (y : IVec ⟨1, ![8192]⟩ 32)
    (hb : (⟨0, ![]⟩ : Shape).BroadcastsInDim ⟨1, ![1]⟩ ![])
    (hs1 : (⟨1, ![8192]⟩ : Shape).Slices ![1] ⟨1, ![8191]⟩) (hs0 : (⟨1, ![8192]⟩ : Shape).Slices ![0] ⟨1, ![8191]⟩)
    (hcat : Shape.Concatenates [⟨1, ![1]⟩, ⟨1, ![8191]⟩] ⟨1, ![8192]⟩ 0) (h132 : 1 < 32) (k : Fin 8192) :
    extui 32
        (concatenate ⟨1, ![8192]⟩ 0
          [⟨⟨1, ![1]⟩, broadcastInDim ⟨1, ![1]⟩ ![] hb (constantI ⟨0, ![]⟩ 1 1#1)⟩,
           ⟨⟨1, ![8191]⟩, cmpi .ne (extractStridedSlice ⟨1, ![8191]⟩ ![1] y hs1) (extractStridedSlice ⟨1, ![8191]⟩ ![0] y hs0)⟩]
          hcat)
        h132 (ix1 k)
      = BitVec.ofNat 32 (RunCount.isNew (fun l : Fin 8192 => (y (ix1 l)).toInt) k) := by
  unfold extui
  by_cases hk : k.val = 0
  · -- position 0 lies in the first piece, the one-element array of the word one; one widened is one
    rw [concatenate_pair_apply_left (t := ⟨1, ![8192]⟩) (s₁ := ⟨1, ![1]⟩) (s₂ := ⟨1, ![8191]⟩) (0 : Fin 1) _ _ hcat (ix1 k) rfl (ix1 (0 : Fin 1)) (by
      intro b
      match b with
      | ⟨0, _⟩ => exact hk.symm)]
    unfold RunCount.isNew
    rw [dif_pos hk]
    rfl
  · -- position k ≥ 1 lies in the second piece at k - 1: the comparison of entry k (the array without its first entry
    -- at k - 1) with entry k - 1 (the array without its last entry at k - 1)
    have hk1 : k.val - 1 < 8191 := by have := k.isLt; omega
    have hk2 : k.val - 1 < 8192 := by omega
    rw [concatenate_pair_apply_right (t := ⟨1, ![8192]⟩) (s₁ := ⟨1, ![1]⟩) (s₂ := ⟨1, ![8191]⟩) (0 : Fin 1) _ _ hcat (ix1 k) rfl rfl (ix1 (⟨k.val - 1, hk1⟩ : Fin 8191)) (by
      intro b hb
      exact absurd (Subsingleton.elim _ _) hb) (by
      show k.val - 1 + 1 = k.val
      omega)]
    unfold cmpi
    rw [extractStridedSlice_apply ![1] y hs1 (ix1 (⟨k.val - 1, hk1⟩ : Fin 8191)) (ix1 k) (by
      intro a
      match a with
      | ⟨0, _⟩ =>
        show k.val = 1 + (k.val - 1)
        omega)]
    rw [extractStridedSlice_apply ![0] y hs0 (ix1 (⟨k.val - 1, hk1⟩ : Fin 8191)) (ix1 (⟨k.val - 1, hk2⟩ : Fin 8192)) (by
      intro a
      match a with
      | ⟨0, _⟩ =>
        show k.val - 1 = 0 + (k.val - 1)
        omega)]
    unfold RunCount.isNew
    rw [dif_neg hk]
    -- two words differ exactly when their signed values differ
    by_cases he : y (ix1 k) = y (ix1 (⟨k.val - 1, hk2⟩ : Fin 8192))
    · have hbe : (y (ix1 k) != y (ix1 (⟨k.val - 1, hk2⟩ : Fin 8192))) = false := by
        rw [he]
        exact bne_self_eq_false _
      rw [if_neg (fun h => h (congrArg BitVec.toInt he))]
      simp only [IntOp.cmpi]
      rw [hbe]
      rfl
    · have hbe : (y (ix1 k) != y (ix1 (⟨k.val - 1, hk2⟩ : Fin 8192))) = true := bne_iff_ne.2 he
      rw [if_pos (fun h => he (BitVec.eq_of_toInt_eq h))]
      simp only [IntOp.cmpi]
      rw [hbe]
      rfl

end Idealize.ShloMosaic.RunStarts

end
-- ==== Proof.LibCumsum.lean ====
/-
  A running sum written as a padded window reduction.  Over a one-axis array of `n` words, the window
  reduction by addition with a window of `n` positions, stride one, `n - 1` padding positions below and none
  above, started from zero, holds at position `k` the sum of the entries at positions `0 … k`.
-/
import Idealize.ShloMosaic.PureOps
import Idealize.ShloMosaic.Lib.ValueIdx
import Mathlib.Algebra.BigOperators.Fin
import Mathlib.Data.BitVec

noncomputable section

namespace Idealize.ShloMosaic.RunningSum

open Idealize.ShloMosaic Idealize.ShloMosaic.ValueIdx
open scoped BigOperators

/-- A left fold of word addition over a list is the starting word plus the sum of the list's terms. -/
theorem foldl_addi_eq_sum {ι : Type} (L : List ι) (g : ι → BitVec 32) (v : BitVec 32) :
    L.foldl (fun r m => IntOp.addi r (g m)) v = v + (L.map g).sum := by
  induction L generalizing v with
  | nil => simp
  | cons a L ih =>
    rw [List.foldl_cons, ih, List.map_cons, List.sum_cons]
    simp [IntOp.addi, add_assoc]

/-- On a one-axis shape, the index at row-major position `m` has coordinate `m`. -/
theorem rowMajor_symm_one_val {d : Fin 1 → Nat} (m : Fin (⟨1, d⟩ : Shape).numel) :
    ((⟨1, d⟩ : Shape).rowMajor.symm m 0).val = m.val := by
  have := Shape.rowMajor_val_one ((⟨1, d⟩ : Shape).rowMajor.symm m)
  rw [Equiv.apply_symm_apply] at this
  exact this.symm

/-- A one-axis shape of extent `n` has `n` elements. -/
theorem numel_one (n : Nat) : (⟨1, ![n]⟩ : Shape).numel = n := by
  simp [Shape.numel]

/-- The entries of a one-axis array as a function of a natural position, zero past the end. -/
def xnat {n : Nat} (x : IVec ⟨1, ![n]⟩ 32) (i : Nat) : BitVec 32 :=
  if h : i < n then x (ix1 ⟨i, h⟩) else 0

/-- Over window positions `m = 0 … lo`, the terms `y (k + m - lo)` at the positions with `lo ≤ k + m` are
    `y 0 … y k`: the map `m ↦ k + m - lo` carries `lo - k … lo` onto `0 … k`. -/
theorem sum_window_nat (lo k : Nat) (hk : k ≤ lo) (y : Nat → BitVec 32) :
    ∑ m ∈ Finset.range (lo + 1), (if lo ≤ k + m then y (k + m - lo) else 0)
      = ∑ l ∈ Finset.range (k + 1), y l := by
  rw [← Finset.sum_filter]
  refine Finset.sum_nbij' (fun m => k + m - lo) (fun l => l + lo - k) ?_ ?_ ?_ ?_ ?_
  · intro m hm; simp at hm ⊢; omega
  · intro l hl; simp at hl ⊢; omega
  · intro m hm; simp at hm ⊢; omega
  · intro l hl; simp at hl ⊢; omega
  · intro m hm; rfl

/-- The sum of the entries at positions `≤ k`, over natural positions `0 … k`. -/
theorem sum_le_eq_sum_range {n : Nat} (x : IVec ⟨1, ![n]⟩ 32) (k : Fin n) :
    ∑ l ∈ Finset.univ.filter (fun l : Fin n => l ≤ k), x (ix1 l) = ∑ l ∈ Finset.range (k.val + 1), xnat x l := by
  rw [Finset.sum_filter]
  have e : ∀ l : Fin n, (if l ≤ k then x (ix1 l) else 0)
      = (fun i : Nat => if i ≤ k.val then xnat x i else 0) l.val := by
    intro l
    simp only [xnat, dif_pos l.isLt, Fin.le_def]
  rw [Finset.sum_congr rfl (fun l _ => e l),
    Fin.sum_univ_eq_sum_range (fun i : Nat => if i ≤ k.val then xnat x i else 0) n, ← Finset.sum_filter]
  congr 1
  ext i
  simp only [Finset.mem_filter, Finset.mem_range]
  have := k.isLt
  omega

/-- One term of the window at `k`: window position `m` is padded position `k + m`, which is operand position
    `k + m - lo` when `lo ≤ k + m` (it is then below `n = lo + 1`, as `k, m ≤ lo`) and padding otherwise. -/
theorem window_term_eq (n lo : Nat) (hlo : lo + 1 = n) (x : IVec ⟨1, ![n]⟩ 32) (k : Fin n) (e : 1 = 1)
    (m : Fin (⟨1, ![n]⟩ : Shape).numel) :
    (if hin : ∀ a : Fin 1, ![lo] a ≤ (ix1 k (Fin.cast e a)).val * ![1] a + ((⟨1, ![n]⟩ : Shape).rowMajor.symm m a).val ∧
        (ix1 k (Fin.cast e a)).val * ![1] a + ((⟨1, ![n]⟩ : Shape).rowMajor.symm m a).val - ![lo] a < ![n] a
      then x fun a => ⟨(ix1 k (Fin.cast e a)).val * ![1] a + ((⟨1, ![n]⟩ : Shape).rowMajor.symm m a).val - ![lo] a, (hin a).2⟩
      else 0#32) = if lo ≤ k.val + m.val then xnat x (k.val + m.val - lo) else 0 := by
  have hm : m.val < n := lt_of_lt_of_eq m.isLt (numel_one n)
  have hk := k.isLt
  have hr := rowMajor_symm_one_val (d := ![n]) m
  by_cases hc : lo ≤ k.val + m.val
  · have hb : k.val + m.val - lo < n := by omega
    rw [if_pos hc, xnat, dif_pos hb, dif_pos]
    · congr 1
      funext a
      match a with
      | ⟨0, _⟩ =>
        apply Fin.ext
        show k.val * 1 + ((⟨1, ![n]⟩ : Shape).rowMajor.symm m 0).val - lo = k.val + m.val - lo
        rw [hr]; omega
    · intro a
      match a with
      | ⟨0, _⟩ =>
        show lo ≤ k.val * 1 + ((⟨1, ![n]⟩ : Shape).rowMajor.symm m 0).val ∧ k.val * 1 + ((⟨1, ![n]⟩ : Shape).rowMajor.symm m 0).val - lo < n
        rw [hr]; omega
  · rw [if_neg hc, dif_neg]
    · rfl
    · intro hin
      have h1 : lo ≤ k.val * 1 + ((⟨1, ![n]⟩ : Shape).rowMajor.symm m 0).val := (hin 0).1
      rw [hr] at h1; omega

/-- The running sum at any extent `n = lo + 1`: the window of `n` positions at `k`, padded `lo` below, sums the
    entries at positions `0 … k`. -/
theorem reduceWindow_running_sum_of_size (n lo : Nat) (hlo : lo + 1 = n) (x : IVec ⟨1, ![n]⟩ 32)
    (init : IVec ⟨0, ![]⟩ 32) (h0 : init = fun _ => 0#32)
    (h : (⟨1, ![n]⟩ : Shape).ReduceWindows ![n] ![1] ![lo] ![0] ⟨1, ![n]⟩)
    (hu : 0 < (⟨0, ![]⟩ : Shape).numel) (k : Fin n) :
    Host.reduceWindow IntOp.addi ![n] ![1] ![lo] ![0] x init h hu (ix1 k)
      = ∑ l ∈ Finset.univ.filter (fun l : Fin n => l ≤ k), x (ix1 l) := by
  subst h0
  subst hlo
  unfold Host.reduceWindow
  simp only []
  rw [foldl_addi_eq_sum, List.map_congr_left (fun m _ => window_term_eq (lo + 1) lo rfl x k _ m), ← Fin.sum_univ_def,
    Fin.sum_univ_eq_sum_range (fun m : Nat => if lo ≤ k.val + m then xnat x (k.val + m - lo) else 0), numel_one,
    sum_le_eq_sum_range, sum_window_nat lo k.val (by have := k.isLt; omega) (xnat x)]
  exact BitVec.zero_add _

/-- The window reduction that spells a running sum, read at position `k`. -/
theorem reduceWindow_running_sum (x : IVec ⟨1, ![8192]⟩ 32) (init : IVec ⟨0, ![]⟩ 32) (h0 : init = fun _ => 0#32)
    (h : (⟨1, ![8192]⟩ : Shape).ReduceWindows ![8192] ![1] ![8191] ![0] ⟨1, ![8192]⟩)
    (hu : 0 < (⟨0, ![]⟩ : Shape).numel) (k : Fin 8192) :
    Host.reduceWindow IntOp.addi ![8192] ![1] ![8191] ![0] x init h hu (ix1 k)
      = ∑ l ∈ Finset.univ.filter (fun l : Fin 8192 => l ≤ k), x (ix1 l) :=
  reduceWindow_running_sum_of_size 8192 8191 rfl x init h0 h hu k

end Idealize.ShloMosaic.RunningSum

end
-- ==== Proof.LibScatterCount.lean ====
/-
  Scattering ones by addition counts.  Into a one-axis array of zeros, add the word one at the position each of `n`
  index words names (one index per update, the index array of shape [n, 1]); when every index word, read signed, is a
  position of the array, entry `i` of the result is the number of updates whose index is `i`.
-/
import Idealize.ShloMosaic.PureOps
import Idealize.ShloMosaic.Lib.ValueIdx
import Mathlib.Algebra.BigOperators.Fin
import Mathlib.Data.BitVec

noncomputable section

namespace Idealize.ShloMosaic.ScatterCount

open Idealize.ShloMosaic Idealize.ShloMosaic.ValueIdx
open scoped BigOperators

/-- With no window axes, the operand's one axis inserted and the index vector on axis 1 of the [n, 1] index array,
    update `j` lands at the position its index word names: the start on the one operand axis is the word at
    `(j 0, 0)` read signed, the window coordinate is zero, and the position `g (j 0)` is inside the operand. -/
theorem resultIdx_eq {n : Nat} (d : ScatterDims ⟨1, ![n]⟩ ⟨2, ![n, 1]⟩ ⟨1, ![n]⟩)
    (hd1 : d.updateWindowDims = []) (hd2 : d.insertedWindowDims = [0]) (hd3 : d.scatterDimsToOperandDims = [0])
    (hd4 : d.indexVectorDim = 1)
    (idx : IVec ⟨2, ![n, 1]⟩ 32) (g : Fin n → Fin n)
    (hg : ∀ k : Fin n, (idx (ix2 k 0)).toInt = ((g k).val : Int)) (j : (⟨1, ![n]⟩ : Shape).Idx) :
    d.resultIdx? j idx = some (ix1 (g (j 0))) := by
  obtain ⟨uw, iw, sd, iv, wf⟩ := d
  simp only at hd1 hd2 hd3 hd4
  subst hd1 hd2 hd3 hd4
  -- the index-array position update `j` reads its one start component at is `(j 0, 0)`
  have hsi : ∀ c, ScatterDims.siIdx ⟨[], [0], [0], 1, wf⟩ j c = ix2 (n0 := n) (n1 := 1) (j 0) 0 := by
    intro c
    funext b
    match b with
    | ⟨0, _⟩ =>
      apply Fin.ext
      simp only [ScatterDims.siIdx, ScatterDims.siCoord]
      rw [dif_neg (by decide)]
      simp only [Fin.coe_cast]
      exact congrArg (fun a => ((j a : Fin _) : Nat)) (Subsingleton.elim _ _)
    | ⟨1, _⟩ =>
      apply Fin.ext
      simp [ScatterDims.siIdx]
  -- the start on the operand's one axis is the index word read signed, which is the position `g (j 0)`
  have hst : ∀ a, ScatterDims.start ⟨[], [0], [0], 1, wf⟩ j idx a = ((g (j 0)).val : Int) := by
    intro a
    unfold ScatterDims.start
    have ha : a = 0 := Subsingleton.elim _ _
    subst ha
    rw [dif_pos (by simp), hsi]
    exact hg (j 0)
  -- the operand's one axis is inserted, so the window coordinate on it is zero
  have hwi : ∀ a, ScatterDims.window ⟨[], [0], [0], 1, wf⟩ j a = 0 := by
    intro a
    unfold ScatterDims.window
    have ha : a = 0 := Subsingleton.elim _ _
    subst ha
    rw [dif_neg]
    simp [ScatterDims.sKept, Shape.kept]
  unfold ScatterDims.resultIdx?
  rw [dif_pos]
  · congr 1
    funext a
    apply Fin.ext
    have ha : a = 0 := Subsingleton.elim _ _
    subst ha
    simp [hst, hwi]
    rfl
  · intro a
    rw [hst, hwi]
    have ha : a = 0 := Subsingleton.elim _ _
    subst ha
    have := (g (j 0)).isLt
    constructor
    · omega
    · show ((g (j 0)).val : Int) + ((0 : Nat) : Int) < ((n : Nat) : Int)
      omega

/-- Adding one at the target of every member of a list, from the left: entry `i` gains the number of members whose
    target is `i`. -/
theorem foldl_add_one {ι κ : Type} [DecidableEq ι] (tgt : κ → ι) (l : List κ) (x : ι → BitVec 32) (i : ι) :
    (l.foldl (fun r n => fun i' => if i' = tgt n then IntOp.addi (r (tgt n)) 1#32 else r i') x) i
      = x i + BitVec.ofNat 32 (l.countP (fun n => tgt n = i)) := by
  induction l generalizing x with
  | nil => simp
  | cons a l ih =>
    rw [List.foldl_cons, ih, List.countP_cons]
    by_cases h : tgt a = i
    · subst h
      simp only [if_true, decide_true, IntOp.addi]
      rw [Nat.add_comm, BitVec.ofNat_add, add_assoc]
    · have h' : ¬ i = tgt a := fun e => h e.symm
      simp [h, h']

/-- Counting the members of `List.finRange N` with a property is the cardinality of the universe filtered by it. -/
theorem countP_finRange (N : Nat) (p : Fin N → Prop) [DecidablePred p] :
    (List.finRange N).countP (fun m => p m) = (Finset.univ.filter p).card := by
  rw [Fin.univ_def, List.countP_eq_length_filter]
  rfl

/-- The count at any extent `n`: entry `i` of the scatter-add of ones at in-range indices is the number of indices
    equal to `i`.  Every update lands at the position its index names, so the fold adds one at `i` once for every
    row-major position whose update has index `i`; the row-major numbering of the one-axis update shape is a bijection
    with the updates. -/
theorem scatter_addi_ones_gen {n : Nat} (d : ScatterDims ⟨1, ![n]⟩ ⟨2, ![n, 1]⟩ ⟨1, ![n]⟩)
    (hd1 : d.updateWindowDims = []) (hd2 : d.insertedWindowDims = [0]) (hd3 : d.scatterDimsToOperandDims = [0])
    (hd4 : d.indexVectorDim = 1)
    (idx : IVec ⟨2, ![n, 1]⟩ 32) (g : Fin n → Fin n)
    (hg : ∀ k : Fin n, (idx (ix2 k 0)).toInt = ((g k).val : Int)) (i : Fin n) :
    Host.scatter d IntOp.addi (fun _ => 0#32) idx (fun _ => 1#32) (ix1 i)
      = BitVec.ofNat 32 (Finset.univ.filter (fun k : Fin n => g k = i)).card := by
  unfold Host.scatter
  simp only [resultIdx_eq d hd1 hd2 hd3 hd4 idx g hg]
  rw [foldl_add_one, countP_finRange, BitVec.zero_add]
  congr 1
  let e0 : (⟨1, ![n]⟩ : Shape).Idx ≃ Fin n :=
    { toFun := fun j => j 0, invFun := fun k => ix1 k, left_inv := fun j => (eq_ix1 j).symm, right_inv := fun _ => rfl }
  refine Finset.card_equiv ((⟨1, ![n]⟩ : Shape).rowMajor.symm.trans e0) ?_
  intro m
  simp only [Finset.mem_filter, Finset.mem_univ, true_and, Equiv.trans_apply]
  constructor
  · intro h
    exact congrArg (fun q => q 0) h
  · intro h
    exact congrArg ix1 h

/-- Entry `i` of the scatter-add of ones at in-range indices is the number of indices equal to `i`. -/
theorem scatter_addi_ones (d : ScatterDims ⟨1, ![8192]⟩ ⟨2, ![8192, 1]⟩ ⟨1, ![8192]⟩)
    (hd1 : d.updateWindowDims = []) (hd2 : d.insertedWindowDims = [0]) (hd3 : d.scatterDimsToOperandDims = [0])
    (hd4 : d.indexVectorDim = 1)
    (idx : IVec ⟨2, ![8192, 1]⟩ 32) (g : Fin 8192 → Fin 8192)
    (hg : ∀ k : Fin 8192, (idx (ix2 k 0)).toInt = ((g k).val : Int)) (i : Fin 8192) :
    Host.scatter d IntOp.addi (fun _ => 0#32) idx (fun _ => 1#32) (ix1 i)
      = BitVec.ofNat 32 (Finset.univ.filter (fun k : Fin 8192 => g k = i)).card :=
  scatter_addi_ones_gen d hd1 hd2 hd3 hd4 idx g hg i

end Idealize.ShloMosaic.ScatterCount

end
-- ==== Proof.LibReduceSum.lean ====
/-
  A whole-array integer sum, and the count of a signed comparison mask.  The host reduction by addition of every
  entry of an array of 32-bit words is the initial word plus the sum of the entries; and the sum over all pairs
  (i, j) of the widened bit "r i < r j" (signed) is the number of such pairs.
-/
import Idealize.ShloMosaic.PureOps
import Idealize.ShloMosaic.PureOps.Reduce
import Idealize.ShloMosaic.Lib.ValueIdx
import Mathlib.Algebra.BigOperators.Fin
import Mathlib.Data.BitVec

noncomputable section

namespace Idealize.ShloMosaic.ReduceSum

open Idealize.ShloMosaic Idealize.ShloMosaic.ValueIdx
open scoped BigOperators

/-- Folding addition over a finite set, from `b`, is `b` plus the sum over the set. -/
theorem fold_add_eq_sum {ι M : Type*} [AddCommMonoid M] (b : M) (f : ι → M) (S : Finset ι) :
    S.fold (fun a c : M => a + c) b f = b + ∑ i ∈ S, f i := by
  induction S using Finset.cons_induction with
  | empty => simp
  | cons a S ha ih => rw [Finset.fold_cons, Finset.sum_cons, ih, add_left_comm]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- The sum over a rank-1 index set of any extent is the sum over the coordinate. -/
theorem sum_idx1_gen {M : Type*} [AddCommMonoid M] {n : Nat} (f : (⟨1, ![n]⟩ : Shape).Idx → M) :
    ∑ i, f i = ∑ k : Fin n, f (ix1 k) :=
  Fintype.sum_equiv idxEquiv1 _ _ fun i => congrArg f (eq_ix1 i)

/-- The widened signed-comparison bit is `1` when the first word is below the second as integers, else `0`. -/
theorem cmpi_slt_setWidth (a b : BitVec 32) :
    (IntOp.cmpi .slt a b).setWidth 32 = if a.toInt < b.toInt then (1 : BitVec 32) else 0 := by
  unfold IntOp.cmpi
  simp only [BitVec.slt]
  by_cases h : a.toInt < b.toInt
  · simp [h]
  · simp [h]

/-- The mask sum over pairs of coordinates of any two extents is the number of pairs in strict signed order. -/
theorem sum_slt_mask_gen {n0 n1 : Nat} (r0 : Fin n0 → BitVec 32) (r1 : Fin n1 → BitVec 32) :
    ∑ i : (⟨2, ![n0, n1]⟩ : Shape).Idx, (IntOp.cmpi .slt (r0 (i 0)) (r1 (i 1))).setWidth 32
      = BitVec.ofNat 32 (Finset.univ.filter (fun p : Fin n0 × Fin n1 => (r0 p.1).toInt < (r1 p.2).toInt)).card := by
  rw [Fintype.sum_equiv (idxEquiv2 (n0 := n0) (n1 := n1))
    (fun i : (⟨2, ![n0, n1]⟩ : Shape).Idx => (IntOp.cmpi .slt (r0 (i 0)) (r1 (i 1))).setWidth 32)
    (fun p : Fin n0 × Fin n1 => if (r0 p.1).toInt < (r1 p.2).toInt then (1 : BitVec 32) else 0)
    (fun i => cmpi_slt_setWidth _ _)]
  rw [Finset.sum_boole, BitVec.natCast_eq_ofNat]

/-- A reduction by addition over all axes is the initial word plus the sum of all entries. -/
theorem reduce_addi_all {s : Shape} {axes : List (Fin s.rank)} (x : IVec s 32) (init : IVec ⟨0, ![]⟩ 32)
    (h : s.ReducesTo axes ⟨0, ![]⟩) (hu : 0 < (⟨0, ![]⟩ : Shape).numel) (j : (⟨0, ![]⟩ : Shape).Idx) :
    Host.reduce IntOp.addi x init h hu j = init (Shape.Idx.first hu) + ∑ i : s.Idx, x i := by
  rw [Host.reduce_eq_fold]
  have hf : (Finset.univ.filter fun i => h.drop i = j) = Finset.univ :=
    Finset.filter_true_of_mem fun i _ => funext fun a => a.elim0
  rw [hf]
  exact fold_add_eq_sum (M := BitVec 32) _ _ _

/-- The sum of a one-axis array is the sum over its positions. -/
theorem sum_idx1 (x : IVec ⟨1, ![8192]⟩ 32) : ∑ i : (⟨1, ![8192]⟩ : Shape).Idx, x i = ∑ k : Fin 8192, x (ix1 k) :=
  sum_idx1_gen x

/-- The widened signed-comparison mask of all pairs sums to the number of pairs in strict signed order. -/
theorem sum_slt_mask (r : Fin 8192 → BitVec 32) :
    ∑ i : (⟨2, ![8192, 8192]⟩ : Shape).Idx, (IntOp.cmpi .slt (r (i 0)) (r (i 1))).setWidth 32
      = BitVec.ofNat 32 (Finset.univ.filter (fun p : Fin 8192 × Fin 8192 => (r p.1).toInt < (r p.2).toInt)).card :=
  sum_slt_mask_gen r r

end Idealize.ShloMosaic.ReduceSum

end
-- ==== Proof.RunCountWords.lean ====
/-
  From the run-start words of a sorted array to twice the number of ordered pairs in strict order, in 32-bit words.
  Given words `w` with `w k` = the word of `isNew s k` (s the signed values of the sorted array y = r ∘ σ):
    the running sum of w at k is the word of `starts s k`; minus one, the word of the run number `runId s k`, which
    is non-negative, so the "negative index" correction leaves it; scattering ones by addition at these run numbers
    gives the run lengths; their squares sum to Σ_g (length of run g)²; and 8192² = 67108864 minus that sum is the word
    of 2·#{(i, j) | r i < r j}, with no 32-bit overflow anywhere (every count is at most 8192² < 2³¹).
-/
import Idealize.ShloMosaic.PureOps
import Idealize.ShloMosaic.Lib.ValueIdx
import Mathlib.Data.BitVec
import Mathlib.Algebra.BigOperators.Fin
import Mathlib.Data.Fintype.Prod
import proofs.«416168_j80908593922473_3_alg».proof.Proof.LibRunCount
import proofs.«416168_j80908593922473_3_alg».proof.Proof.LibCumsum
import proofs.«416168_j80908593922473_3_alg».proof.Proof.LibScatterCount
import proofs.«416168_j80908593922473_3_alg».proof.Proof.LibReduceSum

noncomputable section

namespace Idealize.ShloMosaic.RunCountWords

open Idealize.ShloMosaic Idealize.ShloMosaic.ValueIdx
open scoped BigOperators

/-- A sum of words of naturals is the word of the sum. -/
theorem sum_ofNat {ι : Type} (F : Finset ι) (f : ι → ℕ) :
    ∑ l ∈ F, BitVec.ofNat 32 (f l) = BitVec.ofNat 32 (∑ l ∈ F, f l) := by
  simp only [← BitVec.natCast_eq_ofNat, Nat.cast_sum]

/-- The word of a positive natural, minus one, is the word of its predecessor. -/
theorem ofNat_sub_one (a : ℕ) (h : 1 ≤ a) : BitVec.ofNat 32 a - 1#32 = BitVec.ofNat 32 (a - 1) := by
  show BitVec.ofNat 32 a - BitVec.ofNat 32 1 = BitVec.ofNat 32 (a - 1)
  simp only [← BitVec.natCast_eq_ofNat]
  rw [Nat.cast_sub h]

/-- The signed value of the word of a natural below `2 ^ 31` is that natural. -/
theorem toInt_ofNat_small (v : ℕ) (h : v < 2 ^ 31) : (BitVec.ofNat 32 v).toInt = (v : ℤ) := by
  rw [BitVec.toInt_eq_toNat_cond, BitVec.toNat_ofNat]
  split_ifs <;> omega

/-- The word of a natural times itself is the word of its square. -/
theorem ofNat_mul_self (c : ℕ) : BitVec.ofNat 32 c * BitVec.ofNat 32 c = BitVec.ofNat 32 (c ^ 2) := by
  simp only [← BitVec.natCast_eq_ofNat]
  rw [sq, Nat.cast_mul]

/-- A signed comparison `< 0` of a word whose signed value is a natural selects the second branch. -/
theorem select_slt_zero {α : Type} (x : BitVec 32) (v : ℕ) (hx : x.toInt = (v : ℤ)) (a b : α) :
    Scalar.select (IntOp.cmpi .slt x 0#32) a b = b := by
  have : x.slt 0#32 = false := by
    simp only [BitVec.slt, hx]
    simp
  simp [Scalar.select, IntOp.cmpi, this]

/-- The one-column broadcast of a one-axis array, read at row `k`, is the array's entry `k`. -/
theorem broadcast_col_read {α : Type} (hb2 : (⟨1, ![8192]⟩ : Shape).BroadcastsInDim ⟨2, ![8192, 1]⟩ ![0])
    (v : (⟨1, ![8192]⟩ : Shape).Idx → α) (k : Fin 8192) :
    broadcastInDim ⟨2, ![8192, 1]⟩ ![0] hb2 v (ix2 k 0) = v (ix1 k) := by
  unfold broadcastInDim
  congr 1
  funext a
  match a with
  | ⟨0, h0⟩ =>
    have hne : ¬ (⟨1, ![8192]⟩ : Shape).size ⟨0, h0⟩ = 1 := by
      show ¬ (8192 : ℕ) = 1
      decide
    rw [dif_neg hne]
    rfl

/-- The scatter's index at row `k`: the running sum of the run-start words is the word of `starts s k`; minus one it is
    the word of the run number `runId s k`, a natural below `8192`, so the comparison with zero fails and the selection
    keeps it. -/
theorem run_index_words (s : Fin 8192 → ℤ) (w : IVec ⟨1, ![8192]⟩ 32)
    (hw : ∀ k : Fin 8192, w (ix1 k) = BitVec.ofNat 32 (RunCount.isNew s k))
    (hbc0 : (⟨0, ![]⟩ : Shape).BroadcastsInDim ⟨0, ![]⟩ ![])
    (hbc : (⟨0, ![]⟩ : Shape).BroadcastsInDim ⟨1, ![8192]⟩ ![])
    (hb2 : (⟨1, ![8192]⟩ : Shape).BroadcastsInDim ⟨2, ![8192, 1]⟩ ![0])
    (hrw : (⟨1, ![8192]⟩ : Shape).ReduceWindows ![8192] ![1] ![8191] ![0] ⟨1, ![8192]⟩)
    (hu : 0 < (⟨0, ![]⟩ : Shape).numel) (k : Fin 8192) :
    (broadcastInDim ⟨2, ![8192, 1]⟩ ![0] hb2
      (select (cmpi .slt (subi (Host.reduceWindow IntOp.addi ![8192] ![1] ![8191] ![0] w (broadcastInDim ⟨0, ![]⟩ ![] hbc0 (constantI ⟨0, ![]⟩ 32 0#32)) hrw hu)
        (broadcastInDim ⟨1, ![8192]⟩ ![] hbc (constantI ⟨0, ![]⟩ 32 1#32))) (broadcastInDim ⟨1, ![8192]⟩ ![] hbc (constantI ⟨0, ![]⟩ 32 0#32)))
        (addi (subi (Host.reduceWindow IntOp.addi ![8192] ![1] ![8191] ![0] w (broadcastInDim ⟨0, ![]⟩ ![] hbc0 (constantI ⟨0, ![]⟩ 32 0#32)) hrw hu)
        (broadcastInDim ⟨1, ![8192]⟩ ![] hbc (constantI ⟨0, ![]⟩ 32 1#32))) (broadcastInDim ⟨1, ![8192]⟩ ![] hbc (constantI ⟨0, ![]⟩ 32 8192#32)))
        (subi (Host.reduceWindow IntOp.addi ![8192] ![1] ![8191] ![0] w (broadcastInDim ⟨0, ![]⟩ ![] hbc0 (constantI ⟨0, ![]⟩ 32 0#32)) hrw hu)
        (broadcastInDim ⟨1, ![8192]⟩ ![] hbc (constantI ⟨0, ![]⟩ 32 1#32))))) (ix2 k 0)
      = BitVec.ofNat 32 (RunCount.runId s k).val := by
  rw [broadcast_col_read]
  generalize hCdef : (Host.reduceWindow IntOp.addi ![8192] ![1] ![8191] ![0] w (broadcastInDim ⟨0, ![]⟩ ![] hbc0 (constantI ⟨0, ![]⟩ 32 0#32)) hrw hu) = C
  have hC : C (ix1 k) = BitVec.ofNat 32 (RunCount.starts s k) := by
    rw [← hCdef, RunningSum.reduceWindow_running_sum w (broadcastInDim ⟨0, ![]⟩ ![] hbc0 (constantI ⟨0, ![]⟩ 32 0#32)) rfl hrw hu k,
      Finset.sum_congr rfl (fun l _ => hw l), sum_ofNat]
    rfl
  have hD : IntOp.subi (C (ix1 k)) 1#32 = BitVec.ofNat 32 (RunCount.runId s k).val := by
    rw [hC]
    exact ofNat_sub_one _ (RunCount.one_le_starts s k)
  show Scalar.select (IntOp.cmpi .slt (IntOp.subi (C (ix1 k)) 1#32) 0#32)
      (IntOp.addi (IntOp.subi (C (ix1 k)) 1#32) 8192#32) (IntOp.subi (C (ix1 k)) 1#32) = _
  rw [hD]
  exact select_slt_zero _ _ (toInt_ofNat_small _ (by have := (RunCount.runId s k).isLt; omega)) _ _

/-- The number of ordered pairs of positions whose words are in strict signed order. -/
def ltPairs (r : IVec ⟨1, ![8192]⟩ 32) : ℕ :=
  (Finset.univ.filter (fun p : Fin 8192 × Fin 8192 => (r (ix1 p.1)).toInt < (r (ix1 p.2)).toInt)).card

theorem two_mul_ltPairs_lt (r : IVec ⟨1, ![8192]⟩ 32) : 2 * ltPairs r < 2 ^ 31 := by
  have h : ltPairs r ≤ Fintype.card (Fin 8192 × Fin 8192) := Finset.card_le_univ _
  rw [Fintype.card_prod, Fintype.card_fin] at h
  omega

/-- From the scatter's indices to the final word: scattering ones at the run numbers gives the run lengths, their squares
    sum to `Σ_g (length of run g)²`, and `8192² = 2 · ltPairs r + Σ_g (length of run g)²`. -/
theorem sq_minus_sum_sq_of_index (r : IVec ⟨1, ![8192]⟩ 32) (σ : Fin 8192 → Fin 8192) (hσ : Function.Bijective σ)
    (hmono : Monotone (fun k : Fin 8192 => (r (ix1 (σ k))).toInt))
    (d : ScatterDims ⟨1, ![8192]⟩ ⟨2, ![8192, 1]⟩ ⟨1, ![8192]⟩)
    (hd1 : d.updateWindowDims = []) (hd2 : d.insertedWindowDims = [0]) (hd3 : d.scatterDimsToOperandDims = [0])
    (hd4 : d.indexVectorDim = 1)
    (hred : (⟨1, ![8192]⟩ : Shape).ReducesTo [0] ⟨0, ![]⟩) (hu : 0 < (⟨0, ![]⟩ : Shape).numel)
    (zero1 one1 : IVec ⟨1, ![8192]⟩ 32) (hz : zero1 = fun _ => 0#32) (ho : one1 = fun _ => 1#32)
    (idx : IVec ⟨2, ![8192, 1]⟩ 32)
    (hg : ∀ k : Fin 8192, (idx (ix2 k 0)).toInt
      = ((RunCount.runId ((fun i : Fin 8192 => (r (ix1 i)).toInt) ∘ σ) k).val : ℤ)) :
    subi (constantI ⟨0, ![]⟩ 32 67108864#32)
        (Host.reduce IntOp.addi
          (muli (Host.scatter d IntOp.addi zero1 idx one1) (Host.scatter d IntOp.addi zero1 idx one1))
          (constantI ⟨0, ![]⟩ 32 0#32) hred hu)
      = fun _ => BitVec.ofNat 32 (2 * ltPairs r) := by
  subst hz ho
  have hS := ScatterCount.scatter_addi_ones d hd1 hd2 hd3 hd4 idx _ hg
  have cap : 8192 ^ 2 = 2 * ltPairs r + _ :=
    RunCount.sq_eq_two_mul_lt_add_sum_sq (fun i : Fin 8192 => (r (ix1 i)).toInt) σ hσ hmono
  have h2 : (8192 : ℕ) ^ 2 = 67108864 := by norm_num
  rw [h2] at cap
  funext j
  show IntOp.subi (BitVec.ofNat 32 67108864) (Host.reduce IntOp.addi _ (constantI ⟨0, ![]⟩ 32 0#32) hred hu j) = _
  rw [ReduceSum.reduce_addi_all, ReduceSum.sum_idx1,
    Finset.sum_congr rfl (fun i _ => show muli _ _ (ix1 i) = BitVec.ofNat 32 (_ ^ 2) from by
      show IntOp.muli _ _ = _
      rw [hS i]
      exact ofNat_mul_self _),
    sum_ofNat, cap]
  show BitVec.ofNat 32 _ - (0#32 + BitVec.ofNat 32 _) = _
  rw [BitVec.zero_add]
  simp only [← BitVec.natCast_eq_ofNat]
  rw [Nat.cast_add, add_sub_cancel_right]

/-- The chain from the run-start words to `8192² - Σ (run length)²`, which is the word of `2 · ltPairs r`. -/
theorem sq_minus_sum_sq_words (r y w : IVec ⟨1, ![8192]⟩ 32) (σ : Fin 8192 → Fin 8192) (hσ : Function.Bijective σ)
    (hy : ∀ k : Fin 8192, y (ix1 k) = r (ix1 (σ k)))
    (hmono : Monotone (fun k : Fin 8192 => (r (ix1 (σ k))).toInt))
    (hw : ∀ k : Fin 8192, w (ix1 k) = BitVec.ofNat 32 (RunCount.isNew (fun l : Fin 8192 => (y (ix1 l)).toInt) k))
    (d : ScatterDims ⟨1, ![8192]⟩ ⟨2, ![8192, 1]⟩ ⟨1, ![8192]⟩)
    (hd1 : d.updateWindowDims = []) (hd2 : d.insertedWindowDims = [0]) (hd3 : d.scatterDimsToOperandDims = [0])
    (hd4 : d.indexVectorDim = 1)
    (hbc0 : (⟨0, ![]⟩ : Shape).BroadcastsInDim ⟨0, ![]⟩ ![])
    (hbc : (⟨0, ![]⟩ : Shape).BroadcastsInDim ⟨1, ![8192]⟩ ![])
    (hb2 : (⟨1, ![8192]⟩ : Shape).BroadcastsInDim ⟨2, ![8192, 1]⟩ ![0])
    (hrw : (⟨1, ![8192]⟩ : Shape).ReduceWindows ![8192] ![1] ![8191] ![0] ⟨1, ![8192]⟩)
    (hred : (⟨1, ![8192]⟩ : Shape).ReducesTo [0] ⟨0, ![]⟩) (hu : 0 < (⟨0, ![]⟩ : Shape).numel) :
    subi (constantI ⟨0, ![]⟩ 32 67108864#32)
        (Host.reduce IntOp.addi
          (muli
            (Host.scatter d IntOp.addi (broadcastInDim ⟨1, ![8192]⟩ ![] hbc (constantI ⟨0, ![]⟩ 32 0#32))
              (broadcastInDim ⟨2, ![8192, 1]⟩ ![0] hb2
                (select
                  (cmpi .slt
                    (subi (Host.reduceWindow IntOp.addi ![8192] ![1] ![8191] ![0] w (broadcastInDim ⟨0, ![]⟩ ![] hbc0 (constantI ⟨0, ![]⟩ 32 0#32)) hrw hu)
                      (broadcastInDim ⟨1, ![8192]⟩ ![] hbc (constantI ⟨0, ![]⟩ 32 1#32)))
                    (broadcastInDim ⟨1, ![8192]⟩ ![] hbc (constantI ⟨0, ![]⟩ 32 0#32)))
                  (addi
                    (subi (Host.reduceWindow IntOp.addi ![8192] ![1] ![8191] ![0] w (broadcastInDim ⟨0, ![]⟩ ![] hbc0 (constantI ⟨0, ![]⟩ 32 0#32)) hrw hu)
                      (broadcastInDim ⟨1, ![8192]⟩ ![] hbc (constantI ⟨0, ![]⟩ 32 1#32)))
                    (broadcastInDim ⟨1, ![8192]⟩ ![] hbc (constantI ⟨0, ![]⟩ 32 8192#32)))
                  (subi (Host.reduceWindow IntOp.addi ![8192] ![1] ![8191] ![0] w (broadcastInDim ⟨0, ![]⟩ ![] hbc0 (constantI ⟨0, ![]⟩ 32 0#32)) hrw hu)
                    (broadcastInDim ⟨1, ![8192]⟩ ![] hbc (constantI ⟨0, ![]⟩ 32 1#32)))))
              (broadcastInDim ⟨1, ![8192]⟩ ![] hbc (constantI ⟨0, ![]⟩ 32 1#32)))
            (Host.scatter d IntOp.addi (broadcastInDim ⟨1, ![8192]⟩ ![] hbc (constantI ⟨0, ![]⟩ 32 0#32))
              (broadcastInDim ⟨2, ![8192, 1]⟩ ![0] hb2
                (select
                  (cmpi .slt
                    (subi (Host.reduceWindow IntOp.addi ![8192] ![1] ![8191] ![0] w (broadcastInDim ⟨0, ![]⟩ ![] hbc0 (constantI ⟨0, ![]⟩ 32 0#32)) hrw hu)
                      (broadcastInDim ⟨1, ![8192]⟩ ![] hbc (constantI ⟨0, ![]⟩ 32 1#32)))
                    (broadcastInDim ⟨1, ![8192]⟩ ![] hbc (constantI ⟨0, ![]⟩ 32 0#32)))
                  (addi
                    (subi (Host.reduceWindow IntOp.addi ![8192] ![1] ![8191] ![0] w (broadcastInDim ⟨0, ![]⟩ ![] hbc0 (constantI ⟨0, ![]⟩ 32 0#32)) hrw hu)
                      (broadcastInDim ⟨1, ![8192]⟩ ![] hbc (constantI ⟨0, ![]⟩ 32 1#32)))
                    (broadcastInDim ⟨1, ![8192]⟩ ![] hbc (constantI ⟨0, ![]⟩ 32 8192#32)))
                  (subi (Host.reduceWindow IntOp.addi ![8192] ![1] ![8191] ![0] w (broadcastInDim ⟨0, ![]⟩ ![] hbc0 (constantI ⟨0, ![]⟩ 32 0#32)) hrw hu)
                    (broadcastInDim ⟨1, ![8192]⟩ ![] hbc (constantI ⟨0, ![]⟩ 32 1#32)))))
              (broadcastInDim ⟨1, ![8192]⟩ ![] hbc (constantI ⟨0, ![]⟩ 32 1#32))))
          (constantI ⟨0, ![]⟩ 32 0#32) hred hu)
      = fun _ => BitVec.ofNat 32 (2 * ltPairs r) := by
  have hfun : (fun l : Fin 8192 => (y (ix1 l)).toInt) = (fun i : Fin 8192 => (r (ix1 i)).toInt) ∘ σ :=
    funext fun l => by
      show (y (ix1 l)).toInt = (r (ix1 (σ l))).toInt
      rw [hy]
  rw [hfun] at hw
  refine sq_minus_sum_sq_of_index r σ hσ hmono d hd1 hd2 hd3 hd4 hred hu _ _ ?_ ?_ _ ?_
  · rfl
  · rfl
  · intro k
    rw [run_index_words _ w hw hbc0 hbc hb2 hrw hu k]
    exact toInt_ofNat_small _ (by have := (RunCount.runId ((fun i : Fin 8192 => (r (ix1 i)).toInt) ∘ σ) k).isLt; omega)

end Idealize.ShloMosaic.RunCountWords

end
-- ==== Proof.LibFloorDivTwo.lean ====
/-
  Floor division of an even non-negative 32-bit word by two, as jax spells it over truncating division: the
  truncated quotient, corrected by one when the signs differ and the remainder is not zero.  For the word of
  `2·M` with `2·M < 2³¹` the remainder is zero, no correction applies, and the result is the word of `M`.
-/
import Idealize.ShloMosaic.PureOps
import Mathlib.Data.BitVec

noncomputable section

namespace Idealize.ShloMosaic.FloorDivTwo

open Idealize.ShloMosaic

/-- The floor-division spelling at an even non-negative dividend and the divisor two; `s1`, `s2` stand for the two
    sign words, which do not matter once the remainder is zero. -/
theorem floor_div_two (M : ℕ) (hM : 2 * M < 2 ^ 31) (s1 s2 : BitVec 32) :
    Scalar.select
        (IntOp.andi (IntOp.cmpi .ne s1 s2)
          (IntOp.cmpi .ne (IntOp.remsi .host (BitVec.ofNat 32 (2 * M)) 2#32) 0#32))
        (IntOp.subi (IntOp.divsi .host (BitVec.ofNat 32 (2 * M)) 2#32) 1#32)
        (IntOp.divsi .host (BitVec.ofNat 32 (2 * M)) 2#32)
      = BitVec.ofNat 32 M := by
  -- The dividend is the number `2·M`, below `2³¹`, so its sign bit is clear; so is the divisor's.
  have hx : (BitVec.ofNat 32 (2 * M)).toNat = 2 * M := by
    rw [BitVec.toNat_ofNat]
    exact Nat.mod_eq_of_lt (by omega)
  have hmsb : (BitVec.ofNat 32 (2 * M)).msb = false := by
    rw [BitVec.msb_eq_false_iff_two_mul_lt, hx]
    omega
  have h2msb : (2#32).msb = false := by decide
  -- The divisor two is neither zero nor minus one: no corner of the signed division.
  have hcorner : ¬ IntOp.SDivCorner (BitVec.ofNat 32 (2 * M)) 2#32 := by
    unfold IntOp.SDivCorner
    rintro (h | ⟨_, h⟩)
    · exact absurd h (by decide)
    · exact absurd h (by decide)
  -- With both signs clear the signed quotient is the unsigned one, `2·M / 2 = M`.
  have hdiv : IntOp.divsi .host (BitVec.ofNat 32 (2 * M)) 2#32 = BitVec.ofNat 32 M := by
    unfold IntOp.divsi
    rw [if_neg hcorner, BitVec.sdiv_eq, hmsb, h2msb]
    apply BitVec.eq_of_toNat_eq
    simp only [BitVec.udiv_eq]
    rw [BitVec.toNat_udiv, hx, BitVec.toNat_ofNat, BitVec.toNat_ofNat]
    have h2 : 2 % 2 ^ 32 = 2 := by omega
    rw [h2, Nat.mul_div_cancel_left M (by omega : 0 < 2)]
    exact (Nat.mod_eq_of_lt (by omega)).symm
  -- Likewise the signed remainder is the unsigned one, `2·M mod 2 = 0`.
  have hrem : IntOp.remsi .host (BitVec.ofNat 32 (2 * M)) 2#32 = 0#32 := by
    unfold IntOp.remsi
    rw [if_neg hcorner, BitVec.srem_eq, hmsb, h2msb]
    apply BitVec.eq_of_toNat_eq
    rw [BitVec.toNat_umod, hx, BitVec.toNat_ofNat, BitVec.toNat_ofNat]
    have h2 : 2 % 2 ^ 32 = 2 := by omega
    rw [h2, Nat.mul_mod_right]
  -- The remainder test fails, the conjunction is the zero bit, and the selection keeps the plain quotient.
  have hc : IntOp.cmpi .ne (0#32) (0#32) = 0#1 := by decide
  have ha : IntOp.andi (IntOp.cmpi .ne s1 s2) 0#1 = 0#1 := by
    unfold IntOp.andi
    exact BitVec.and_zero
  rw [hrem, hdiv, hc, ha]
  unfold Scalar.select
  rw [if_neg (by decide)]

end Idealize.ShloMosaic.FloorDivTwo

end
-- ==== Proof.RefSum.lean ====
/-
  The reference's sum of the masked squared hinge over all ordered pairs, read at the extended reals: the host
  sum over both axes of the [8192, 8192] array whose entry (i, k) is the reference's term of the pair (i, k) is
  the double sum of those terms.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«416168_j80908593922473_3_alg».proof.Proof.PairLoss

noncomputable section

namespace PairLoss

open Idealize.ShloMosaic Idealize.ShloMosaic.ValueIdx
open scoped BigOperators

/-- A vector laid down the rows and then across the columns, read at (i, k), is the vector at i. -/
theorem bcast_col_apply {α : Type} (v : (⟨1, ![8192]⟩ : Shape).Idx → α)
    (hA : (⟨1, ![8192]⟩ : Shape).BroadcastsInDim ⟨2, ![8192, 1]⟩ ![0])
    (hC : (⟨2, ![8192, 1]⟩ : Shape).BroadcastsInDim ⟨2, ![8192, 8192]⟩ ![0, 1]) (i k : Fin 8192) :
    broadcastInDim ⟨2, ![8192, 8192]⟩ ![0, 1] hC (broadcastInDim ⟨2, ![8192, 1]⟩ ![0] hA v) (ix2 i k) = v (ix1 i) := by
  have e1 := broadcastInDim_apply ![0, 1] hC (broadcastInDim ⟨2, ![8192, 1]⟩ ![0] hA v) (ix2 i k) (ix2 i (0 : Fin 1)) (by
    intro a
    fin_cases a
    · show i.val = if (8192 : ℕ) = 1 then 0 else i.val
      simp
    · show (0 : ℕ) = if (1 : ℕ) = 1 then 0 else k.val
      simp)
  have e2 := broadcastInDim_apply ![0] hA v (ix2 i (0 : Fin 1)) (ix1 i) (by
    intro a
    fin_cases a
    show i.val = if (8192 : ℕ) = 1 then 0 else i.val
    simp)
  exact e1.trans e2

/-- A one-row array laid across the columns and then down the rows, read at (i, k), is the row at (0, k). -/
theorem bcast_row2_apply {α : Type} (y : (⟨2, ![1, 8192]⟩ : Shape).Idx → α)
    (hD : (⟨2, ![1, 8192]⟩ : Shape).BroadcastsInDim ⟨2, ![8192, 8192]⟩ ![0, 1]) (i k : Fin 8192) :
    broadcastInDim ⟨2, ![8192, 8192]⟩ ![0, 1] hD y (ix2 i k) = y (ix2 (0 : Fin 1) k) :=
  broadcastInDim_apply ![0, 1] hD y (ix2 i k) (ix2 (0 : Fin 1) k) (by
    intro a
    fin_cases a
    · show (0 : ℕ) = if (1 : ℕ) = 1 then 0 else i.val
      simp
    · show k.val = if (8192 : ℕ) = 1 then 0 else k.val
      simp)

/-- A vector laid across the columns of a one-row array, read at (0, k), is the vector at k. -/
theorem bcast_row1_apply {α : Type} (v : (⟨1, ![8192]⟩ : Shape).Idx → α)
    (hB : (⟨1, ![8192]⟩ : Shape).BroadcastsInDim ⟨2, ![1, 8192]⟩ ![1]) (k : Fin 8192) :
    broadcastInDim ⟨2, ![1, 8192]⟩ ![1] hB v (ix2 (0 : Fin 1) k) = v (ix1 k) :=
  broadcastInDim_apply ![1] hB v (ix2 (0 : Fin 1) k) (ix1 k) (by
    intro a
    fin_cases a
    show k.val = if (8192 : ℕ) = 1 then 0 else k.val
    simp)

/-- The reference's reduction, as the double sum of its pair terms. -/
theorem ref_sum (x : FVec Ideal ⟨1, ![8192]⟩ .f32) (r : IVec ⟨1, ![8192]⟩ 32)
    (hA : (⟨1, ![8192]⟩ : Shape).BroadcastsInDim ⟨2, ![8192, 1]⟩ ![0])
    (hB : (⟨1, ![8192]⟩ : Shape).BroadcastsInDim ⟨2, ![1, 8192]⟩ ![1])
    (hC : (⟨2, ![8192, 1]⟩ : Shape).BroadcastsInDim ⟨2, ![8192, 8192]⟩ ![0, 1])
    (hD : (⟨2, ![1, 8192]⟩ : Shape).BroadcastsInDim ⟨2, ![8192, 8192]⟩ ![0, 1])
    (hE : (⟨0, ![]⟩ : Shape).BroadcastsInDim ⟨2, ![1, 8192]⟩ ![])
    (hF : (⟨0, ![]⟩ : Shape).BroadcastsInDim ⟨2, ![8192, 8192]⟩ ![])
    (hred : (⟨2, ![8192, 8192]⟩ : Shape).ReducesTo [0, 1] ⟨0, ![]⟩) (hu : 0 < (⟨0, ![]⟩ : Shape).numel)
    (j : (⟨0, ![]⟩ : Shape).Idx) :
    Host.reduceAdd (F := Ideal)
      (select
        (cmpi .slt (broadcastInDim ⟨2, ![8192, 8192]⟩ ![0, 1] hC (broadcastInDim ⟨2, ![8192, 1]⟩ ![0] hA r))
          (broadcastInDim ⟨2, ![8192, 8192]⟩ ![0, 1] hD (broadcastInDim ⟨2, ![1, 8192]⟩ ![1] hB r)))
        (mulf
          (maximumf
            (addf
              (broadcastInDim ⟨2, ![8192, 8192]⟩ ![0, 1] hD
                (subf (broadcastInDim ⟨2, ![1, 8192]⟩ ![] hE (constant (F := Ideal) ⟨0, ![]⟩ .f32 0x3F800000#32))
                  (broadcastInDim ⟨2, ![1, 8192]⟩ ![1] hB x)))
              (broadcastInDim ⟨2, ![8192, 8192]⟩ ![0, 1] hC (broadcastInDim ⟨2, ![8192, 1]⟩ ![0] hA x)))
            (broadcastInDim ⟨2, ![8192, 8192]⟩ ![] hF (constant (F := Ideal) ⟨0, ![]⟩ .f32 0x00000000#32)))
          (maximumf
            (addf
              (broadcastInDim ⟨2, ![8192, 8192]⟩ ![0, 1] hD
                (subf (broadcastInDim ⟨2, ![1, 8192]⟩ ![] hE (constant (F := Ideal) ⟨0, ![]⟩ .f32 0x3F800000#32))
                  (broadcastInDim ⟨2, ![1, 8192]⟩ ![1] hB x)))
              (broadcastInDim ⟨2, ![8192, 8192]⟩ ![0, 1] hC (broadcastInDim ⟨2, ![8192, 1]⟩ ![0] hA x)))
            (broadcastInDim ⟨2, ![8192, 8192]⟩ ![] hF (constant (F := Ideal) ⟨0, ![]⟩ .f32 0x00000000#32))))
        (broadcastInDim ⟨2, ![8192, 8192]⟩ ![] hF (id (constant (F := Ideal) ⟨0, ![]⟩ .f32 0x00000000#32))))
      (constant (F := Ideal) ⟨0, ![]⟩ .f32 0x00000000#32) hred hu j
      = ∑ i : Fin 8192, ∑ k : Fin 8192, refTerm (x (ix1 i)) (x (ix1 k)) (r (ix1 i)) (r (ix1 k)) := by
  rw [hostReduceAdd_apply, Ideal.hostReduceAdd_total hred (fun b => b.elim0), sum_idx2]
  have h0 : constant (F := Ideal) ⟨0, ![]⟩ .f32 0x00000000#32 (Shape.Idx.first hu) = 0 := by
    show Ideal.ofBits .f32 0x00000000#32 = 0
    exact Ideal.ofBits_zero_f32
  rw [h0, zero_add]
  refine Finset.sum_congr rfl fun i _ => Finset.sum_congr rfl fun k _ => ?_
  simp only [select, cmpi, mulf, maximumf, addf]
  rw [bcast_col_apply r hA hC i k, bcast_col_apply x hA hC i k, bcast_row2_apply _ hD i k, bcast_row2_apply _ hD i k,
    bcast_row1_apply r hB k]
  simp only [subf, id_eq]
  rw [bcast_row1_apply x hB k, broadcastInDim_scalar_apply hE _ (ix2 (0 : Fin 1) k),
    broadcastInDim_scalar_apply hF _ (ix2 i k)]
  simp only [constant, Ideal.ofBits_def, Ideal.ofBits_zero_f32, Ideal.addf_def, Ideal.subf_def, Ideal.mulf_def,
    Ideal.maximumf_def, refTerm, one]

end PairLoss

end
-- ==== Proof.CountValue.lean ====
/-
  The two counts of valid pairs, as 32-bit words.  The reference sums the comparison mask over all ordered pairs.
  The kernel sorts the ranks, marks where runs of equal ranks start, numbers the runs by a running sum, counts each
  run's length by a scatter-add, and takes (8192² - Σ length²) / 2.  Both are the word of the number of ordered pairs
  (i, j) with rank i < rank j (signed).
-/
import Idealize.ShloMosaic.PureOps
import Idealize.ShloMosaic.Lib.ValueIdx
import Mathlib.Data.BitVec
import proofs.«416168_j80908593922473_3_alg».proof.Proof.Gen.KernelIdeal
import proofs.«416168_j80908593922473_3_alg».proof.Proof.LibSortedPerm
import proofs.«416168_j80908593922473_3_alg».proof.Proof.LibRunStarts
import proofs.«416168_j80908593922473_3_alg».proof.Proof.RunCountWords
import proofs.«416168_j80908593922473_3_alg».proof.Proof.LibFloorDivTwo
import proofs.«416168_j80908593922473_3_alg».proof.Proof.LibReduceSum
import proofs.«416168_j80908593922473_3_alg».proof.Proof.RefSum

noncomputable section

namespace Cert.Counts

open Idealize.ShloMosaic Idealize.ShloMosaic.ValueIdx Idealize.ShloMosaic.RunCountWords
open scoped BigOperators

/-- The reference's count: the sum of the widened comparison mask over all ordered pairs. -/
theorem ref_count (r : IVec ⟨1, ![8192]⟩ 32)
    (hA : (⟨1, ![8192]⟩ : Shape).BroadcastsInDim ⟨2, ![8192, 1]⟩ ![0])
    (hB : (⟨1, ![8192]⟩ : Shape).BroadcastsInDim ⟨2, ![1, 8192]⟩ ![1])
    (hC : (⟨2, ![8192, 1]⟩ : Shape).BroadcastsInDim ⟨2, ![8192, 8192]⟩ ![0, 1])
    (hD : (⟨2, ![1, 8192]⟩ : Shape).BroadcastsInDim ⟨2, ![8192, 8192]⟩ ![0, 1])
    (h132 : 1 < 32)
    (hred : (⟨2, ![8192, 8192]⟩ : Shape).ReducesTo [0, 1] ⟨0, ![]⟩) (hu : 0 < (⟨0, ![]⟩ : Shape).numel) :
    Host.reduce IntOp.addi
        (extui 32
          (cmpi .slt (broadcastInDim ⟨2, ![8192, 8192]⟩ ![0, 1] hC (broadcastInDim ⟨2, ![8192, 1]⟩ ![0] hA r))
            (broadcastInDim ⟨2, ![8192, 8192]⟩ ![0, 1] hD (broadcastInDim ⟨2, ![1, 8192]⟩ ![1] hB r)))
          h132)
        (constantI ⟨0, ![]⟩ 32 0#32) hred hu
      = fun _ => BitVec.ofNat 32 (ltPairs r) := by
  funext j
  rw [ReduceSum.reduce_addi_all]
  have hterm : ∀ i : (⟨2, ![8192, 8192]⟩ : Shape).Idx,
      extui 32
          (cmpi .slt (broadcastInDim ⟨2, ![8192, 8192]⟩ ![0, 1] hC (broadcastInDim ⟨2, ![8192, 1]⟩ ![0] hA r))
            (broadcastInDim ⟨2, ![8192, 8192]⟩ ![0, 1] hD (broadcastInDim ⟨2, ![1, 8192]⟩ ![1] hB r)))
          h132 i
        = (IntOp.cmpi .slt (r (ix1 (i 0))) (r (ix1 (i 1)))).setWidth 32 := by
    intro i
    obtain ⟨p, q, rfl⟩ : ∃ (p q : Fin 8192), i = ix2 p q := ⟨i 0, i 1, eq_ix2 i⟩
    show (IntOp.cmpi .slt
        (broadcastInDim ⟨2, ![8192, 8192]⟩ ![0, 1] hC (broadcastInDim ⟨2, ![8192, 1]⟩ ![0] hA r) (ix2 p q))
        (broadcastInDim ⟨2, ![8192, 8192]⟩ ![0, 1] hD (broadcastInDim ⟨2, ![1, 8192]⟩ ![1] hB r) (ix2 p q))).setWidth 32
      = (IntOp.cmpi .slt (r (ix1 p)) (r (ix1 q))).setWidth 32
    rw [PairLoss.bcast_col_apply r hA hC p q, PairLoss.bcast_row2_apply _ hD p q, PairLoss.bcast_row1_apply r hB q]
  rw [Finset.sum_congr rfl (fun i _ => hterm i), ReduceSum.sum_slt_mask (fun k => r (ix1 k))]
  show (0#32 : BitVec 32) + _ = _
  rw [BitVec.zero_add]
  rfl

open Cert.KernelIdeal Cert.KernelIdeal.Gen in
/-- The kernel's count: sort, run starts, running sum, scatter-add, squares, and the halved difference. -/
theorem ker_count (r : IVec S8192 32) :
    select
        (andi
          (cmpi .ne
            (signi (subi (constantI S_ 32 67108864#32) (Host.reduce IntOp.addi (muli (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32))) (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32)))) (constantI S_ 32 0#32) reducesTo_S8192_S_d0 h_S_)))
            (signi (id (constantI S_ 32 2#32))))
          (cmpi .ne (Host.remsi (subi (constantI S_ 32 67108864#32) (Host.reduce IntOp.addi (muli (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32))) (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32)))) (constantI S_ 32 0#32) reducesTo_S8192_S_d0 h_S_)) (id (constantI S_ 32 2#32))) (constantI S_ 32 0#32)))
        (subi (Host.divsi (subi (constantI S_ 32 67108864#32) (Host.reduce IntOp.addi (muli (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32))) (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32)))) (constantI S_ 32 0#32) reducesTo_S8192_S_d0 h_S_)) (id (constantI S_ 32 2#32))) (constantI S_ 32 1#32))
        (Host.divsi (subi (constantI S_ 32 67108864#32) (Host.reduce IntOp.addi (muli (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32))) (Host.scatter scatter_S8192_S8192x1_S8192_n_0_0_1 IntOp.addi (broadcastInDim S8192 ![] bcast_S_S8192 (constantI S_ 32 0#32)) (broadcastInDim S8192x1 ![0] bcast_S8192_S8192x1_0 (select (cmpi .slt (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 0#32))) (addi (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))) (broadcastInDim S8192 ![] bcast_S_S8192 (constantI S_ 32 8192#32))) (subi (Host.reduceWindow IntOp.addi ![8192] ![1] ![8191] ![0] (extui 32 (concatenate S8192 0 [⟨S1, broadcastInDim S1 ![] bcast_S_S1 (constantI S_ 1 1#1)⟩, ⟨S8191, cmpi .ne (extractStridedSlice S8191 ![1] (Host.sort S8192 0 comparator_i32_d0 r) slices_S8192_S8191_1) (extractStridedSlice S8191 ![0] (Host.sort S8192 0 comparator_i32_d0 r) slices_S8192_S8191_0)⟩] concatenates_S1_S8191_S8192_d0) natLt_1_32) (broadcastInDim S_ ![] bcast_S_S_ (constantI S_ 32 0#32)) reduceWindows_S8192_S8192_w8192s1p8191_0 h_S_) (broadcastInDim S8192 ![] bcast_S_S8192 (constantI S_ 32 1#32))))) (broadcastInDim S8192 ![] bcast_S_S8192 (constantI S_ 32 1#32)))) (constantI S_ 32 0#32) reducesTo_S8192_S_d0 h_S_)) (id (constantI S_ 32 2#32)))
      = fun _ => BitVec.ofNat 32 (ltPairs r) := by
  obtain ⟨σ, hσ, hy, hmono⟩ := SortedPerm.sort_slt_sorted_perm comparator_i32_d0 (fun _ _ => rfl) r
  have hw := RunStarts.run_start_words (Host.sort S8192 0 comparator_i32_d0 r) bcast_S_S1 slices_S8192_S8191_1
    slices_S8192_S8191_0 concatenates_S1_S8191_S8192_d0 natLt_1_32
  have h27 := sq_minus_sum_sq_words r (Host.sort S8192 0 comparator_i32_d0 r) _ σ hσ hy hmono hw
    scatter_S8192_S8192x1_S8192_n_0_0_1 rfl rfl rfl rfl bcast_S_S_ bcast_S_S8192 bcast_S8192_S8192x1_0
    reduceWindows_S8192_S8192_w8192s1p8191_0 reducesTo_S8192_S_d0 h_S_
  rw [h27]
  funext j
  exact FloorDivTwo.floor_div_two (ltPairs r) (two_mul_ltPairs_lt r) _ _

end Cert.Counts

end
-- ==== Proof.KernelValue.lean ====
/-
  The idealized kernel's run with its result named: every execution ends with the result buffer at the quotient of
  the sum of the 32 block sums by the number of valid pairs (at least one) as a float, and the arguments unchanged.
  The region's output array is read off the frame run (the block sums); the host operations after the region are
  followed stretch by stretch, and the count chain is the word of the number of ordered pairs in strict rank order.
-/
import proofs.«416168_j80908593922473_3_alg».proof.Proof.Gen.KernelIdeal.Frame
import proofs.«416168_j80908593922473_3_alg».proof.Proof.KernelTail
import proofs.«416168_j80908593922473_3_alg».proof.Proof.KernelBlocks
import proofs.«416168_j80908593922473_3_alg».proof.Proof.CountValue

set_option maxRecDepth 16384

noncomputable section

namespace Cert.KernelIdeal.HandValue

open Idealize.ShloMosaic Idealize.ShloMosaic.TcCoe Idealize.SL.Sem Idealize.ShloMosaic.StableHlo
open Idealize.ShloMosaic.RunCountWords
open Cert.KernelIdeal Cert.KernelIdeal.Gen Cert.KernelIdeal.Tail

variable (m : (ℓ : Loc nD τ sig) → Buf (Elt Ideal) ℓ) (ρ : Dev nD → PrngReg)

/-- The kernel's result as one function of the two argument arrays. -/
def kerResult (x : FVec Ideal S8192 .f32) (r : IVec S8192 32) : FVec Ideal S_ .f32 :=
  Host.divf
    (Host.reduceAdd (F := Ideal) (Blocks.blockSums x r) (constant (F := Ideal) S_ .f32 0x00000000#32) reducesTo_S32x1x1_S_d0_1_2 h_S_)
    (sitofp .f32 (maxsi (fun _ => BitVec.ofNat 32 (ltPairs r)) (constantI S_ 32 1#32)))

set_option maxHeartbeats 4000000 in
/-- What the host operations after the region leave in the result buffer. -/
theorem tail_value (c : Dev nD) :
    Pipeline.afterTail₀ cfgs (dats (F := Ideal) m) 0 (V0 m)
        [hostOps1, hostOps1_1, hostOps1_2, hostOps1_3, hostOps1_4, hostOps1_5, hostOps1_6] c main_v31
      = kerResult (m ((c.tc : Thread nD τ).loc main_arg0)) (m ((c.tc : Thread nD τ).loc main_arg1)) := by
  unfold Pipeline.afterTail₀
  show StableHlo.after (hostOps1 ++ (hostOps1_1 ++ (hostOps1_2 ++ (hostOps1_3 ++ (hostOps1_4 ++ (hostOps1_5 ++ (hostOps1_6 ++ [])))))))
      _ (Proc.devRef .tc main_v31) = _
  rw [List.append_nil, after_append, after_append, after_append, after_append, after_append, after_append]
  rw [result_stage, div_stage_v5, count_stage_v5, cumsum_stage_v5, starts_stage_v5, sort_stage_v5, sum_stage]
  rw [div_stage, count_stage, count_stage_two, cumsum_stage, starts_stage, sort_stage, sum_stage_arg1]
  rw [Pipeline.withArrays_of_ne _ c (V0 m c) _ main_arg1 (by exact (by decide : ∀ w, Pipeline.arrRef spec0 w ≠ main_arg1))]
  rw [show V0 m c (Proc.devRef .tc main_arg1) = m ((c.tc : Thread nD τ).loc main_arg1) from V_main_arg1 m c]
  rw [show Pipeline.withArrays (cfgs 0).spec c (V0 m c) (fun w => (dats m 0 c).arrAt w (cfgs 0).N) (Proc.devRef .tc main_v4)
      = (dats m 0 c).arrAt 4 cfg0.N from Pipeline.withArrays_arr spec0 launch0.win.arr_inj c _ _ 4]
  rw [Blocks.arr4_eq, Cert.Counts.ker_count]
  rfl

/-- The run, with the result named and the arguments kept. -/
theorem run : θ_run defs (onTc (τ := τ) (main (F := Ideal))) ⟨m, fun _ => 0, ρ⟩ (fun r => ∀ c : Dev nD,
      r.2.mem ((c.tc : Thread nD τ).loc main_v31)
          = kerResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v31 (Pipeline.mem_restRefs_of main_v31 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.HandValue

end
-- ==== Proof.KerSum.lean ====
/-
  The kernel's loss sum: the host sum of the 32 block sums is the reference's double sum of pair terms, when every
  prediction is a real number.
-/
import Idealize.ShloMosaic.PureOps.Ideal
import Idealize.ShloMosaic.PureOps.Ideal.Laws
import Idealize.ShloMosaic.Lib.ValueIdx
import Idealize.ShloMosaic.Lib.IdealHost
import proofs.«416168_j80908593922473_3_alg».proof.Proof.KernelBlocks
import proofs.«416168_j80908593922473_3_alg».proof.Proof.PairSum

noncomputable section

namespace Cert.KernelIdeal.Blocks

open Idealize.ShloMosaic Idealize.ShloMosaic.ValueIdx PairLoss
open Cert.KernelIdeal
open scoped BigOperators

/-- The entries of the [32, 1, 1] array are its entries (t, 0, 0), one for each block t. -/
def blockIdxEquiv : Fin 32 ≃ S32x1x1.Idx where
  toFun t := ix3 t (0 : Fin 1) (0 : Fin 1)
  invFun i := i 0
  left_inv _ := rfl
  right_inv i := by
    have hi1 : (i 1).val < 1 := (i 1).isLt
    have hi2 : (i 2).val < 1 := (i 2).isLt
    funext a
    apply Fin.ext
    match a with
    | ⟨0, _⟩ => rfl
    | ⟨1, _⟩ => show (0 : ℕ) = (i 1).val; omega
    | ⟨2, _⟩ => show (0 : ℕ) = (i 2).val; omega

/-- The sum of the block sums is the sum over all ordered pairs of the reference's pair term. -/
theorem ker_sum (x : FVec Ideal S8192 .f32) (r : IVec S8192 32) (hx : ∀ i : Fin 8192, ∃ a : ℝ, x (ix1 i) = (a : EReal))
    (hred : S32x1x1.ReducesTo [0, 1, 2] S_) (hu : 0 < S_.numel) :
    Host.reduceAdd (F := Ideal) (blockSums x r) (constant (F := Ideal) S_ .f32 0x00000000#32) hred hu
      = fun _ => ∑ i : Fin 8192, ∑ k : Fin 8192, refTerm (x (ix1 i)) (x (ix1 k)) (r (ix1 i)) (r (ix1 k)) := by
  funext j
  rw [hostReduceAdd_apply, Ideal.hostReduceAdd_total hred (fun b => b.elim0)]
  have h0 : constant (F := Ideal) S_ .f32 0x00000000#32 (Shape.Idx.first hu) = 0 := by
    show Ideal.ofBits .f32 0x00000000#32 = 0
    exact Ideal.ofBits_zero_f32
  rw [h0, zero_add, ← Equiv.sum_comp blockIdxEquiv]
  exact blocks_sum_eq (fun i => x (ix1 i)) (fun i => r (ix1 i)) hx

end Cert.KernelIdeal.Blocks

end
-- ==== Proof.FiniteInputs.lean ====
/-
  The precondition read element by element: if "every |pred i| is below +∞" holds of an array of extended reals,
  every entry is a real number.
-/
import proofs.«416168_j80908593922473_3_alg».proof.Pre_finite_inputs
import proofs.«416168_j80908593922473_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Idealize.ShloMosaic.ValueIdx

/-- The scalar shape has one index. -/
local instance subsingleton_idx0 : Subsingleton (⟨0, ![]⟩ : Shape).Idx := ⟨fun _ _ => funext fun d => d.elim0⟩

/-- The 32-bit word `0x7F800000` denotes `+∞`. -/
theorem ofBits_inf : Ideal.ofBits .f32 0x7F800000#32 = (⊤ : EReal) := by
  simp [Ideal.ofBits, Ideal.ieee]

/-- An extended real whose absolute value `max y (-y)` is below `+∞` is a real number. -/
theorem real_of_abs_lt_top (y : EReal) (hy : max y (-y) < ⊤) : ∃ a : ℝ, y = (a : EReal) := by
  induction y using EReal.rec with
  | bot => simp at hy
  | coe a => exact ⟨a, rfl⟩
  | top => simp at hy

/-- Under the precondition every prediction is a real number. -/
theorem real_of_pre (x : FVec Ideal Cert.Pre_finite_inputs.S8192 .f32) (r : IVec Cert.Pre_finite_inputs.S8192 32)
    (h : Cert.Pre_finite_inputs.fn (F := Ideal) x r = fun _ => 1#1) (i : Fin 8192) :
    ∃ a : ℝ, x (ix1 i) = (a : EReal) := by
  have h0 := congrFun h ValueIdx.ix0
  dsimp only [Cert.Pre_finite_inputs.fn] at h0
  have hb := Host.reduce_andi_all _ _ _ _ _ h0 (ix1 i)
  have hlt : max (x (ix1 i)) (-(x (ix1 i))) < Ideal.ofBits .f32 0x7F800000#32 := by
    by_contra hn
    have hb' : BitVec.ofBool (decide (max (x (ix1 i)) (-(x (ix1 i))) < Ideal.ofBits .f32 0x7F800000#32)) = 1#1 := hb
    rw [decide_eq_false hn] at hb'
    exact absurd hb' (by decide)
  rw [ofBits_inf] at hlt
  exact real_of_abs_lt_top _ hlt

end Cert.Pre_finite_inputs.Finite

end
-- ==== Proof.lean ====
/-
  The rank loss: mean over the valid ordered pairs (rank i < rank j) of relu(1 + pred i - pred j)².

  The kernel computes the sum of the squared masked hinge over all ordered pairs in 32 row blocks of 256 rows, each
  grid point storing its block's sum, adds the 32 block sums on the host, and divides by a count of the valid pairs
  obtained WITHOUT the pairwise mask: it sorts the ranks, marks where runs of equal ranks start, numbers the runs by
  a running sum, counts each run's length by a scatter-add of ones, and takes (8192² - Σ length²) / 2.  The reference
  builds the [8192, 8192] mask and hinge, sums the masked squared hinge, and divides by the sum of the mask.

  At the extended reals the two sums agree when every prediction is a real number ((1 + a) - b = (1 - b) + a in ℝ;
  masking commutes with squaring because 0² = 0; the block order of a finite sum is immaterial).  The two counts are
  the same 32-bit word for EVERY array of ranks: of the 8192² ordered pairs, those with equal ranks number Σ length²
  (two positions of the sorted array hold equal ranks exactly when they lie in one run), and the rest split evenly
  into rank i < rank j and rank i > rank j; no intermediate value exceeds 8192² < 2³¹.  Both results are then the
  same quotient.  The idealization rewrote nothing, so `preserves` is trivial.
-/
import proofs.«416168_j80908593922473_3_alg».proof.Defs
import proofs.«416168_j80908593922473_3_alg».proof.Proof.Gen.Kernel
import proofs.«416168_j80908593922473_3_alg».proof.Proof.Gen.Kernel.Skeleton
import proofs.«416168_j80908593922473_3_alg».proof.Proof.Gen.Kernel.Launch
import proofs.«416168_j80908593922473_3_alg».proof.Proof.Gen.Kernel.Points
import proofs.«416168_j80908593922473_3_alg».proof.Proof.Gen.Kernel.Frame
import proofs.«416168_j80908593922473_3_alg».proof.Proof.Gen.KernelIdeal
import proofs.«416168_j80908593922473_3_alg».proof.Proof.Gen.KernelIdeal.Skeleton
import proofs.«416168_j80908593922473_3_alg».proof.Proof.Gen.KernelIdeal.Launch
import proofs.«416168_j80908593922473_3_alg».proof.Proof.Gen.KernelIdeal.Points
import proofs.«416168_j80908593922473_3_alg».proof.Proof.Gen.KernelIdeal.Frame
import proofs.«416168_j80908593922473_3_alg».proof.Proof.Gen.ReferenceIdeal
import proofs.«416168_j80908593922473_3_alg».proof.Proof.Gen.Pre_finite_inputs
import proofs.«416168_j80908593922473_3_alg».proof.Proof.Gen.ReferenceIdeal.Run
import proofs.«416168_j80908593922473_3_alg».proof.Proof.Gen.ReferenceIdeal.Read
import proofs.«416168_j80908593922473_3_alg».proof.Proof.KernelValue
import proofs.«416168_j80908593922473_3_alg».proof.Proof.KerSum
import proofs.«416168_j80908593922473_3_alg».proof.Proof.RefSum
import proofs.«416168_j80908593922473_3_alg».proof.Proof.CountValue
import proofs.«416168_j80908593922473_3_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at one quotient: the sums agree at real predictions, the counts agree at every ranks. -/
theorem algebraic : Cert.algebraic_KernelIdeal_ReferenceIdeal := by
  intro m ρ m' ρ' hpre hagree
  refine ⟨fun c => Cert.KernelIdeal.HandValue.kerResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  have hx := fun i => Cert.Pre_finite_inputs.Finite.real_of_pre _ _ (hpre c) i
  show Host.divf _ _ = Host.divf _ _
  refine congrArg₂ _ ?_ ?_
  · funext j
    rw [PairLoss.ref_sum]
    exact (congrFun (Cert.KernelIdeal.Blocks.ker_sum _ _ hx _ _) j).symm
  · rw [Cert.Counts.ref_count]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
